-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S1024x1024 : Shape := ⟨2, ![1024, 1024]⟩
abbrev S512x1024 : Shape := ⟨2, ![512, 1024]⟩
abbrev S512 : Shape := ⟨1, ![512]⟩
abbrev S1000x512 : Shape := ⟨2, ![1000, 512]⟩
abbrev S1000 : Shape := ⟨1, ![1000]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4096 : S_.BroadcastsInDim S4096 (![] : Fin 0 → Fin S4096.rank)
  reducesTo_S4096_S_d0 : S4096.ReducesTo [0] S_
  bcast_S_S1024 : S_.BroadcastsInDim S1024 (![] : Fin 0 → Fin S1024.rank)
  reducesTo_S1024_S_d0 : S1024.ReducesTo [0] S_
  bcast_S_S512 : S_.BroadcastsInDim S512 (![] : Fin 0 → Fin S512.rank)
  reducesTo_S512_S_d0 : S512.ReducesTo [0] S_
  bcast_S_S1000 : S_.BroadcastsInDim S1000 (![] : Fin 0 → Fin S1000.rank)
  reducesTo_S1000_S_d0 : S1000.ReducesTo [0] S_

variable [Facts]

def fn_part2 {F : FTy → Type} [FloatOps F] (main_arg11 : FVec F S512 .f32) (main_arg12 : FVec F S512 .f32) (main_arg14 : FVec F S1000 .f32) (main_v33 : IVec S_ 1) : IVec S_ 1 :=
  let main_v34 : FVec F S512 .f32 := Host.absf main_arg11
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg12
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S1000 .f32 := Host.absf main_arg14
  let main_cst_16 : FVec F S_ .f32 := constant S_ .f32 0x7F800000#32
  let main_v45 : FVec F S1000 .f32 := broadcastInDim S1000 ![] bcast_S_S1000 main_cst_16
  let main_v46 : IVec S1000 1 := cmpf .olt main_v44 main_v45
  let main_c_17 : IVec S_ 1 := constantI S_ 1 1#1
  let main_v47 : IVec S_ 1 := (fun x v => Host.reduce IntOp.andi x v reducesTo_S1000_S_d0 h_S_) main_v46 main_c_17
  let main_v48 : IVec S_ 1 := andi main_v43 main_v47
  main_v48

def fn_part1 {F : FTy → Type} [FloatOps F] (main_arg6 : FVec F S1024 .f32) (main_arg8 : FVec F S1024 .f32) (main_arg9 : FVec F S1024 .f32) (main_arg11 : FVec F S512 .f32) (main_arg12 : FVec F S512 .f32) (main_arg14 : FVec F S1000 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg6
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg8
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg9
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg11 main_arg12 main_arg14 main_v33

def fn {F : FTy → Type} [FloatOps F] (main_arg0 : FVec F S16384x1024 .f32) (main_arg1 : IVec S4096x1024 32) (main_arg2 : FVec F S4096 .f32) (main_arg3 : FVec F S4096 .f32) (main_arg4 : IVec S1024x4096 32) (main_arg5 : FVec F S1024 .f32) (main_arg6 : FVec F S1024 .f32) (main_arg7 : IVec S1024x1024 32) (main_arg8 : FVec F S1024 .f32) (main_arg9 : FVec F S1024 .f32) (main_arg10 : IVec S512x1024 32) (main_arg11 : FVec F S512 .f32) (main_arg12 : FVec F S512 .f32) (main_arg13 : IVec S1000x512 32) (main_arg14 : FVec F S1000 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S1024 .f32 := Host.absf main_arg5
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg6 main_arg8 main_arg9 main_arg11 main_arg12 main_arg14 main_v13 main_v16
-- ==== Kernel.lean ====
abbrev S16384x1024 : Shape := ⟨2, ![16384, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S1024x1024 : Shape := ⟨2, ![1024, 1024]⟩
abbrev S512x1024 : Shape := ⟨2, ![512, 1024]⟩
abbrev S512 : Shape := ⟨1, ![512]⟩
abbrev S1000x512 : Shape := ⟨2, ![1000, 512]⟩
abbrev S1000 : Shape := ⟨1, ![1000]⟩
abbrev S_ : Shape := ⟨0, ![]⟩
abbrev S4096x1 : Shape := ⟨2, ![4096, 1]⟩
abbrev S1024x1 : Shape := ⟨2, ![1024, 1]⟩
abbrev S512x1 : Shape := ⟨2, ![512, 1]⟩
abbrev S1024x512 : Shape := ⟨2, ![1024, 512]⟩
abbrev S1x4096 : Shape := ⟨2, ![1, 4096]⟩
abbrev S1x1024 : Shape := ⟨2, ![1, 1024]⟩
abbrev S1x512 : Shape := ⟨2, ![1, 512]⟩
abbrev S256x1024 : Shape := ⟨2, ![256, 1024]⟩
abbrev S256x4096 : Shape := ⟨2, ![256, 4096]⟩
abbrev S256x512 : Shape := ⟨2, ![256, 512]⟩
abbrev S256 : Shape := ⟨1, ![256]⟩
abbrev S256x1 : Shape := ⟨2, ![256, 1]⟩
abbrev S16384x1000 : Shape := ⟨2, ![16384, 1000]⟩

abbrev nBuf : Space → Nat
  | .hbm => 72
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S4096x1024, .i32⟩
  | .hbm, ⟨2, _⟩ => ⟨S4096, .f32⟩
  | .hbm, ⟨3, _⟩ => ⟨S4096, .f32⟩
  | .hbm, ⟨4, _⟩ => ⟨S1024x4096, .i32⟩
  | .hbm, ⟨5, _⟩ => ⟨S1024, .f32⟩
  | .hbm, ⟨6, _⟩ => ⟨S1024, .f32⟩
  | .hbm, ⟨7, _⟩ => ⟨S1024x1024, .i32⟩
  | .hbm, ⟨8, _⟩ => ⟨S1024, .f32⟩
  | .hbm, ⟨9, _⟩ => ⟨S1024, .f32⟩
  | .hbm, ⟨10, _⟩ => ⟨S512x1024, .i32⟩
  | .hbm, ⟨11, _⟩ => ⟨S512, .f32⟩
  | .hbm, ⟨12, _⟩ => ⟨S512, .f32⟩
  | .hbm, ⟨13, _⟩ => ⟨S1000x512, .i32⟩
  | .hbm, ⟨14, _⟩ => ⟨S1000, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1024x4096, .f32⟩
  | .hbm, ⟨23, _⟩ => ⟨S1024x4096, .bf16⟩
  | .hbm, ⟨24, _⟩ => ⟨S1024x4096, .f32⟩
  | .hbm, ⟨25, _⟩ => ⟨S_, .f32⟩
  | .hbm, ⟨26, _⟩ => ⟨S1024x4096, .f32⟩
  | .hbm, ⟨27, _⟩ => ⟨S1024x4096, .f32⟩
  | .hbm, ⟨28, _⟩ => ⟨S1024x1, .f32⟩
  | .hbm, ⟨29, _⟩ => ⟨S1024x4096, .f32⟩
  | .hbm, ⟨30, _⟩ => ⟨S1024x4096, .f32⟩
  | .hbm, ⟨31, _⟩ => ⟨S4096x1024, .f32⟩
  | .hbm, ⟨32, _⟩ => ⟨S4096x1024, .bf16⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | .hbm, ⟨37, _⟩ => ⟨S1024x1, .f32⟩
  | .hbm, ⟨38, _⟩ => ⟨S1024x1024, .f32⟩
  | .hbm, ⟨39, _⟩ => ⟨S1024x1024, .f32⟩
  | .hbm, ⟨40, _⟩ => ⟨S1024x1024, .f32⟩
  | .hbm, ⟨41, _⟩ => ⟨S1024x1024, .bf16⟩
  | .hbm, ⟨42, _⟩ => ⟨S512x1024, .f32⟩
  | .hbm, ⟨43, _⟩ => ⟨S_, .f32⟩
  | .hbm, ⟨44, _⟩ => ⟨S512x1024, .f32⟩
  | .hbm, ⟨45, _⟩ => ⟨S512x1024, .f32⟩
  | .hbm, ⟨46, _⟩ => ⟨S512x1, .f32⟩
  | .hbm, ⟨47, _⟩ => ⟨S512x1024, .f32⟩
  | .hbm, ⟨48, _⟩ => ⟨S512x1024, .f32⟩
  | .hbm, ⟨49, _⟩ => ⟨S1024x512, .f32⟩
  | .hbm, ⟨50, _⟩ => ⟨S1024x512, .bf16⟩
  | .hbm, ⟨51, _⟩ => ⟨S_, .i32⟩
  | .hbm, ⟨52, _⟩ => ⟨S_, .i32⟩
  | .hbm, ⟨53, _⟩ => ⟨S1024x512, .i32⟩
  | .hbm, ⟨54, _⟩ => ⟨S_, .i32⟩
  | .hbm, ⟨55, _⟩ => ⟨S_, .f32⟩
  | .hbm, ⟨56, _⟩ => ⟨S1024, .f32⟩
  | .hbm, ⟨57, _⟩ => ⟨S1024x512, .f32⟩
  | .hbm, ⟨58, _⟩ => ⟨S_, .f32⟩
  | .hbm, ⟨59, _⟩ => ⟨S1024x512, .f32⟩
  | .hbm, ⟨60, _⟩ => ⟨S1024x512, .f32⟩
  | .hbm, ⟨61, _⟩ => ⟨S1024x1, .f32⟩
  | .hbm, ⟨62, _⟩ => ⟨S1024x512, .f32⟩
  | .hbm, ⟨63, _⟩ => ⟨S1024x512, .f32⟩
  | .hbm, ⟨64, _⟩ => ⟨S512x1024, .f32⟩
  | .hbm, ⟨65, _⟩ => ⟨S512x1024, .bf16⟩
  | .hbm, ⟨66, _⟩ => ⟨S1x4096, .f32⟩
  | .hbm, ⟨67, _⟩ => ⟨S1x1024, .f32⟩
  | .hbm, ⟨68, _⟩ => ⟨S1x1024, .f32⟩
  | .hbm, ⟨69, _⟩ => ⟨S1x512, .f32⟩
  | .hbm, ⟨70, _⟩ => ⟨S16384x1024, .f32⟩
  | .hbm, ⟨71, _⟩ => ⟨S16384x1000, .f32⟩
  | .local _ .vmem, ⟨0, _⟩ => ⟨S256x1024, .f32⟩
  | .local _ .vmem, ⟨1, _⟩ => ⟨S256x1024, .f32⟩
  | .local _ .vmem, ⟨2, _⟩ => ⟨S1024x4096, .bf16⟩
  | .local _ .vmem, ⟨3, _⟩ => ⟨S1x4096, .f32⟩
  | .local _ .vmem, ⟨4, _⟩ => ⟨S4096x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x512, .bf16⟩
  | .local _ .vmem, ⟨9, _⟩ => ⟨S1x512, .f32⟩
  | .local _ .vmem, ⟨10, _⟩ => ⟨S512x1024, .bf16⟩
  | .local _ .vmem, ⟨11, _⟩ => ⟨S256x1024, .f32⟩
  | .local _ .vmem, ⟨12, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c : Ref sig .tc := ⟨.hbm, 51, rfl⟩
abbrev main_call0_v0 : Ref sig .tc := ⟨.hbm, 52, rfl⟩
abbrev main_v32 : Ref sig .tc := ⟨.hbm, 53, rfl⟩
abbrev main_c_3 : Ref sig .tc := ⟨.hbm, 54, rfl⟩
abbrev main_call1_v0 : Ref sig .tc := ⟨.hbm, 55, rfl⟩
abbrev main_v33 : Ref sig .tc := ⟨.hbm, 56, rfl⟩
abbrev main_v34 : Ref sig .tc := ⟨.hbm, 57, rfl⟩
abbrev main_cst_4 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S4096x1024 : S_.BroadcastsInDim S4096x1024 (![] : Fin 0 → Fin S4096x1024.rank)
  bcast_S4096_S4096x1_0 : S4096.BroadcastsInDim S4096x1 (![0] : Fin 1 → Fin S4096x1.rank)
  bcast_S4096x1_S4096x1024_0_1 : S4096x1.BroadcastsInDim S4096x1024 (![0, 1] : Fin 2 → Fin S4096x1024.rank)
  transposes_S4096x1024_S1024x4096_1_0 : S4096x1024.Transposes [1, 0] S1024x4096
  bitsLt_bf16_f32 : FTy.bits .bf16 < FTy.bits .f32
  bcast_S_S1024x4096 : S_.BroadcastsInDim S1024x4096 (![] : Fin 0 → Fin S1024x4096.rank)
  bcast_S1024_S1024x1_0 : S1024.BroadcastsInDim S1024x1 (![0] : Fin 1 → Fin S1024x1.rank)
  bcast_S1024x1_S1024x4096_0_1 : S1024x1.BroadcastsInDim S1024x4096 (![0, 1] : Fin 2 → Fin S1024x4096.rank)
  transposes_S1024x4096_S4096x1024_1_0 : S1024x4096.Transposes [1, 0] S4096x1024
  bcast_S_S1024x1024 : S_.BroadcastsInDim S1024x1024 (![] : Fin 0 → Fin S1024x1024.rank)
  bcast_S1024x1_S1024x1024_0_1 : S1024x1.BroadcastsInDim S1024x1024 (![0, 1] : Fin 2 → Fin S1024x1024.rank)
  transposes_S1024x1024_S1024x1024_1_0 : S1024x1024.Transposes [1, 0] S1024x1024
  bcast_S_S512x1024 : S_.BroadcastsInDim S512x1024 (![] : Fin 0 → Fin S512x1024.rank)
  bcast_S512_S512x1_0 : S512.BroadcastsInDim S512x1 (![0] : Fin 1 → Fin S512x1.rank)
  bcast_S512x1_S512x1024_0_1 : S512x1.BroadcastsInDim S512x1024 (![0, 1] : Fin 2 → Fin S512x1024.rank)
  transposes_S512x1024_S1024x512_1_0 : S512x1024.Transposes [1, 0] S1024x512
  pads_S1000x512_S1024x512_0240_000 : S1000x512.Pads (![0, 0] : Fin 2 → Nat) ![24, 0] ![0, 0] S1024x512
  h_S_ : 0 < S_.numel
  pads_S1000_S1024_0240 : S1000.Pads (![0] : Fin 1 → Nat) ![24] ![0] S1024
  bcast_S_S1024x512 : S_.BroadcastsInDim S1024x512 (![] : Fin 0 → Fin S1024x512.rank)
  bcast_S1024x1_S1024x512_0_1 : S1024x1.BroadcastsInDim S1024x512 (![0, 1] : Fin 2 → Fin S1024x512.rank)
  transposes_S1024x512_S512x1024_1_0 : S1024x512.Transposes [1, 0] S512x1024
  shapeCasts_S4096_S1x4096 : S4096.ShapeCasts S1x4096
  shapeCasts_S1024_S1x1024 : S1024.ShapeCasts S1x1024
  shapeCasts_S512_S1x512 : S512.ShapeCasts S1x512
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  iota_S256x1024_d1_w32 : S256x1024.Iotas .tc 32 [1]
  reduces_S256x1024_S256 : S256x1024.Reduces [1] S256
  shapeCasts_S256_S256x1 : S256.ShapeCasts S256x1
  broadcasts_S256x1_S256x1024 : S256x1.Broadcasts S256x1024
  slices_S16384x1024_S16384x1000_0_0 : S16384x1024.Slices ![0, 0] S16384x1000
  dot_S256x1024_S1024x4096_S256x4096_1_0_0_1_n_n_wf : DotDims.WF S256x1024 S1024x4096 S256x4096 [1] [0] [0] [1] [] []
  dot_S256x4096_S4096x1024_S256x1024_1_0_0_1_n_n_wf : DotDims.WF S256x4096 S4096x1024 S256x1024 [1] [0] [0] [1] [] []
  dot_S256x1024_S1024x1024_S256x1024_1_0_0_1_n_n_wf : DotDims.WF S256x1024 S1024x1024 S256x1024 [1] [0] [0] [1] [] []
  dot_S256x1024_S1024x512_S256x512_1_0_0_1_n_n_wf : DotDims.WF S256x1024 S1024x512 S256x512 [1] [0] [0] [1] [] []
  dot_S256x512_S512x1024_S256x1024_1_0_0_1_n_n_wf : DotDims.WF S256x512 S512x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S1024x512.size a
  hwx0_7 : ∀ i : grid0.Coords, EltTy.bits .bf16 = 32 ∨ (Rect.block (s := S1024x512) S1024x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S512x1024.size a
  hwx0_9 : ∀ i : grid0.Coords, EltTy.bits .bf16 = 32 ∨ (Rect.block (s := S512x1024) S512x1024.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x1024.size a ≤ S16384x1024.size a
  hwx0_10 : ∀ i : grid0.Coords, EltTy.bits .f32 = 32 ∨ (Rect.block (s := S16384x1024) S256x1024.size (cc0_transform_10 i) (hinb0_10 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v42) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v43) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v44) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v31) S1024x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v45) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v41) S512x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v46) S256x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S1024x1024 : Shape := ⟨2, ![1024, 1024]⟩
abbrev S512x1024 : Shape := ⟨2, ![512, 1024]⟩
abbrev S512 : Shape := ⟨1, ![512]⟩
abbrev S1000x512 : Shape := ⟨2, ![1000, 512]⟩
abbrev S1000 : Shape := ⟨1, ![1000]⟩
abbrev S_ : Shape := ⟨0, ![]⟩
abbrev S4096x1 : Shape := ⟨2, ![4096, 1]⟩
abbrev S16384x4096 : Shape := ⟨2, ![16384, 4096]⟩
abbrev S1x4096 : Shape := ⟨2, ![1, 4096]⟩
abbrev S1024x1 : Shape := ⟨2, ![1024, 1]⟩
abbrev S1x1024 : Shape := ⟨2, ![1, 1024]⟩
abbrev S512x1 : Shape := ⟨2, ![512, 1]⟩
abbrev S1024x512 : Shape := ⟨2, ![1024, 512]⟩
abbrev S16384x512 : Shape := ⟨2, ![16384, 512]⟩
abbrev S1x512 : Shape := ⟨2, ![1, 512]⟩
abbrev S1000x1 : Shape := ⟨2, ![1000, 1]⟩
abbrev S512x1000 : Shape := ⟨2, ![512, 1000]⟩
abbrev S16384x1000 : Shape := ⟨2, ![16384, 1000]⟩
abbrev S16384 : Shape := ⟨1, ![16384]⟩
abbrev S16384x1 : Shape := ⟨2, ![16384, 1]⟩

abbrev nBuf : Space → Nat
  | .hbm => 99
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4096x1024, .i32⟩
  | .hbm, ⟨2, _⟩ => ⟨S4096, .f32⟩
  | .hbm, ⟨3, _⟩ => ⟨S4096, .f32⟩
  | .hbm, ⟨4, _⟩ => ⟨S1024x4096, .i32⟩
  | .hbm, ⟨5, _⟩ => ⟨S1024, .f32⟩
  | .hbm, ⟨6, _⟩ => ⟨S1024, .f32⟩
  | .hbm, ⟨7, _⟩ => ⟨S1024x1024, .i32⟩
  | .hbm, ⟨8, _⟩ => ⟨S1024, .f32⟩
  | .hbm, ⟨9, _⟩ => ⟨S1024, .f32⟩
  | .hbm, ⟨10, _⟩ => ⟨S512x1024, .i32⟩
  | .hbm, ⟨11, _⟩ => ⟨S512, .f32⟩
  | .hbm, ⟨12, _⟩ => ⟨S512, .f32⟩
  | .hbm, ⟨13, _⟩ => ⟨S1000x512, .i32⟩
  | .hbm, ⟨14, _⟩ => ⟨S1000, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1024x4096, .f32⟩
  | .hbm, ⟨23, _⟩ => ⟨S16384x4096, .f32⟩
  | .hbm, ⟨24, _⟩ => ⟨S1x4096, .f32⟩
  | .hbm, ⟨25, _⟩ => ⟨S16384x4096, .f32⟩
  | .hbm, ⟨26, _⟩ => ⟨S16384x4096, .f32⟩
  | .hbm, ⟨27, _⟩ => ⟨S_, .f32⟩
  | .hbm, ⟨28, _⟩ => ⟨S16384x4096, .f32⟩
  | .hbm, ⟨29, _⟩ => ⟨S16384x4096, .f32⟩
  | .hbm, ⟨30, _⟩ => ⟨S1024x4096, .f32⟩
  | .hbm, ⟨31, _⟩ => ⟨S_, .f32⟩
  | .hbm, ⟨32, _⟩ => ⟨S1024x4096, .f32⟩
  | .hbm, ⟨33, _⟩ => ⟨S1024x4096, .f32⟩
  | .hbm, ⟨34, _⟩ => ⟨S1024x1, .f32⟩
  | .hbm, ⟨35, _⟩ => ⟨S1024x4096, .f32⟩
  | .hbm, ⟨36, _⟩ => ⟨S1024x4096, .f32⟩
  | .hbm, ⟨37, _⟩ => ⟨S4096x1024, .f32⟩
  | .hbm, ⟨38, _⟩ => ⟨S16384x1024, .f32⟩
  | .hbm, ⟨39, _⟩ => ⟨S1x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S1024x1024, .f32⟩
  | .hbm, ⟨46, _⟩ => ⟨S_, .f32⟩
  | .hbm, ⟨47, _⟩ => ⟨S1024x1024, .f32⟩
  | .hbm, ⟨48, _⟩ => ⟨S1024x1024, .f32⟩
  | .hbm, ⟨49, _⟩ => ⟨S1024x1, .f32⟩
  | .hbm, ⟨50, _⟩ => ⟨S1024x1024, .f32⟩
  | .hbm, ⟨51, _⟩ => ⟨S1024x1024, .f32⟩
  | .hbm, ⟨52, _⟩ => ⟨S1024x1024, .f32⟩
  | .hbm, ⟨53, _⟩ => ⟨S16384x1024, .f32⟩
  | .hbm, ⟨54, _⟩ => ⟨S1x1024, .f32⟩
  | .hbm, ⟨55, _⟩ => ⟨S16384x1024, .f32⟩
  | .hbm, ⟨56, _⟩ => ⟨S16384x1024, .f32⟩
  | .hbm, ⟨57, _⟩ => ⟨S_, .f32⟩
  | .hbm, ⟨58, _⟩ => ⟨S16384x1024, .f32⟩
  | .hbm, ⟨59, _⟩ => ⟨S16384x1024, .f32⟩
  | .hbm, ⟨60, _⟩ => ⟨S512x1024, .f32⟩
  | .hbm, ⟨61, _⟩ => ⟨S_, .f32⟩
  | .hbm, ⟨62, _⟩ => ⟨S512x1024, .f32⟩
  | .hbm, ⟨63, _⟩ => ⟨S512x1024, .f32⟩
  | .hbm, ⟨64, _⟩ => ⟨S512x1, .f32⟩
  | .hbm, ⟨65, _⟩ => ⟨S512x1024, .f32⟩
  | .hbm, ⟨66, _⟩ => ⟨S512x1024, .f32⟩
  | .hbm, ⟨67, _⟩ => ⟨S1024x512, .f32⟩
  | .hbm, ⟨68, _⟩ => ⟨S16384x512, .f32⟩
  | .hbm, ⟨69, _⟩ => ⟨S1x512, .f32⟩
  | .hbm, ⟨70, _⟩ => ⟨S16384x512, .f32⟩
  | .hbm, ⟨71, _⟩ => ⟨S16384x512, .f32⟩
  | .hbm, ⟨72, _⟩ => ⟨S_, .f32⟩
  | .hbm, ⟨73, _⟩ => ⟨S16384x512, .f32⟩
  | .hbm, ⟨74, _⟩ => ⟨S16384x512, .f32⟩
  | .hbm, ⟨75, _⟩ => ⟨S1000x512, .f32⟩
  | .hbm, ⟨76, _⟩ => ⟨S_, .f32⟩
  | .hbm, ⟨77, _⟩ => ⟨S1000x512, .f32⟩
  | .hbm, ⟨78, _⟩ => ⟨S1000x512, .f32⟩
  | .hbm, ⟨79, _⟩ => ⟨S1000x1, .f32⟩
  | .hbm, ⟨80, _⟩ => ⟨S1000x512, .f32⟩
  | .hbm, ⟨81, _⟩ => ⟨S1000x512, .f32⟩
  | .hbm, ⟨82, _⟩ => ⟨S512x1000, .f32⟩
  | .hbm, ⟨83, _⟩ => ⟨S16384x1000, .f32⟩
  | .hbm, ⟨84, _⟩ => ⟨S_, .f32⟩
  | .hbm, ⟨85, _⟩ => ⟨S16384, .f32⟩
  | .hbm, ⟨86, _⟩ => ⟨S_, .f32⟩
  | .hbm, ⟨87, _⟩ => ⟨S16384, .f32⟩
  | .hbm, ⟨88, _⟩ => ⟨S16384, .f32⟩
  | .hbm, ⟨89, _⟩ => ⟨S16384x1, .f32⟩
  | .hbm, ⟨90, _⟩ => ⟨S16384x1000, .f32⟩
  | .hbm, ⟨91, _⟩ => ⟨S16384x1000, .f32⟩
  | .hbm, ⟨92, _⟩ => ⟨S16384x1000, .f32⟩
  | .hbm, ⟨93, _⟩ => ⟨S_, .f32⟩
  | .hbm, ⟨94, _⟩ => ⟨S16384, .f32⟩
  | .hbm, ⟨95, _⟩ => ⟨S16384x1, .f32⟩
  | .hbm, ⟨96, _⟩ => ⟨S16384x1, .f32⟩
  | .hbm, ⟨97, _⟩ => ⟨S16384x1000, .f32⟩
  | .hbm, ⟨98, _⟩ => ⟨S16384x1000, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call0_cst : Ref sig .tc := ⟨.hbm, 27, rfl⟩
abbrev main_call0_v0 : Ref sig .tc := ⟨.hbm, 28, rfl⟩
abbrev main_v11 : Ref sig .tc := ⟨.hbm, 29, rfl⟩
abbrev main_v12 : Ref sig .tc := ⟨.hbm, 30, rfl⟩
abbrev main_cst_0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call1_cst : Ref sig .tc := ⟨.hbm, 42, rfl⟩
abbrev main_call1_v0 : Ref sig .tc := ⟨.hbm, 43, rfl⟩
abbrev main_v23 : Ref sig .tc := ⟨.hbm, 44, rfl⟩
abbrev main_v24 : Ref sig .tc := ⟨.hbm, 45, rfl⟩
abbrev main_cst_1 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_call2_cst : Ref sig .tc := ⟨.hbm, 57, rfl⟩
abbrev main_call2_v0 : Ref sig .tc := ⟨.hbm, 58, rfl⟩
abbrev main_v35 : Ref sig .tc := ⟨.hbm, 59, rfl⟩
abbrev main_v36 : Ref sig .tc := ⟨.hbm, 60, rfl⟩
abbrev main_cst_2 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call3_cst : Ref sig .tc := ⟨.hbm, 72, rfl⟩
abbrev main_call3_v0 : Ref sig .tc := ⟨.hbm, 73, rfl⟩
abbrev main_v47 : Ref sig .tc := ⟨.hbm, 74, rfl⟩
abbrev main_v48 : Ref sig .tc := ⟨.hbm, 75, rfl⟩
abbrev main_cst_3 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_call4_cst : Ref sig .tc := ⟨.hbm, 84, rfl⟩
abbrev main_call4_v0 : Ref sig .tc := ⟨.hbm, 85, rfl⟩
abbrev main_call4_cst_0 : Ref sig .tc := ⟨.hbm, 86, rfl⟩
abbrev main_call4_v1 : Ref sig .tc := ⟨.hbm, 87, rfl⟩
abbrev main_call4_v2 : Ref sig .tc := ⟨.hbm, 88, rfl⟩
abbrev main_call4_v3 : Ref sig .tc := ⟨.hbm, 89, rfl⟩
abbrev main_call4_v4 : Ref sig .tc := ⟨.hbm, 90, rfl⟩
abbrev main_call4_v5 : Ref sig .tc := ⟨.hbm, 91, rfl⟩
abbrev main_call4_v6 : Ref sig .tc := ⟨.hbm, 92, rfl⟩
abbrev main_call4_cst_1 : Ref sig .tc := ⟨.hbm, 93, rfl⟩
abbrev main_call4_v7 : Ref sig .tc := ⟨.hbm, 94, rfl⟩
abbrev main_call4_v8 : Ref sig .tc := ⟨.hbm, 95, rfl⟩
abbrev main_call4_v9 : Ref sig .tc := ⟨.hbm, 96, rfl⟩
abbrev main_call4_v10 : Ref sig .tc := ⟨.hbm, 97, rfl⟩
abbrev main_v56 : Ref sig .tc := ⟨.hbm, 98, rfl⟩

abbrev nD : Nat := 1
abbrev τ : Topo := Topo.v7x

variable {F : FTy → Type} [FloatOps F]

class Facts₀ : Prop where
  bcast_S_S4096x1024 : S_.BroadcastsInDim S4096x1024 (![] : Fin 0 → Fin S4096x1024.rank)
  bcast_S4096_S4096x1_0 : S4096.BroadcastsInDim S4096x1 (![0] : Fin 1 → Fin S4096x1.rank)
  bcast_S4096x1_S4096x1024_0_1 : S4096x1.BroadcastsInDim S4096x1024 (![0, 1] : Fin 2 → Fin S4096x1024.rank)
  transposes_S4096x1024_S1024x4096_1_0 : S4096x1024.Transposes [1, 0] S1024x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  bcast_S_S1024x4096 : S_.BroadcastsInDim S1024x4096 (![] : Fin 0 → Fin S1024x4096.rank)
  bcast_S1024_S1024x1_0 : S1024.BroadcastsInDim S1024x1 (![0] : Fin 1 → Fin S1024x1.rank)
  bcast_S1024x1_S1024x4096_0_1 : S1024x1.BroadcastsInDim S1024x4096 (![0, 1] : Fin 2 → Fin S1024x4096.rank)
  transposes_S1024x4096_S4096x1024_1_0 : S1024x4096.Transposes [1, 0] S4096x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S_S1024x1024 : S_.BroadcastsInDim S1024x1024 (![] : Fin 0 → Fin S1024x1024.rank)
  bcast_S1024x1_S1024x1024_0_1 : S1024x1.BroadcastsInDim S1024x1024 (![0, 1] : Fin 2 → Fin S1024x1024.rank)
  transposes_S1024x1024_S1024x1024_1_0 : S1024x1024.Transposes [1, 0] S1024x1024
  bcast_S_S512x1024 : S_.BroadcastsInDim S512x1024 (![] : Fin 0 → Fin S512x1024.rank)
  bcast_S512_S512x1_0 : S512.BroadcastsInDim S512x1 (![0] : Fin 1 → Fin S512x1.rank)
  bcast_S512x1_S512x1024_0_1 : S512x1.BroadcastsInDim S512x1024 (![0, 1] : Fin 2 → Fin S512x1024.rank)
  transposes_S512x1024_S1024x512_1_0 : S512x1024.Transposes [1, 0] S1024x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  bcast_S_S1000x512 : S_.BroadcastsInDim S1000x512 (![] : Fin 0 → Fin S1000x512.rank)
  bcast_S1000_S1000x1_0 : S1000.BroadcastsInDim S1000x1 (![0] : Fin 1 → Fin S1000x1.rank)
  bcast_S1000x1_S1000x512_0_1 : S1000x1.BroadcastsInDim S1000x512 (![0, 1] : Fin 2 → Fin S1000x512.rank)
  transposes_S1000x512_S512x1000_1_0 : S1000x512.Transposes [1, 0] S512x1000
  reducesTo_S16384x1000_S16384_d1 : S16384x1000.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x1000_0_1 : S16384x1.BroadcastsInDim S16384x1000 (![0, 1] : Fin 2 → Fin S16384x1000.rank)
  dot_S16384x1024_S1024x4096_S16384x4096_1_0_0_1_n_n_wf : DotDims.WF S16384x1024 S1024x4096 S16384x4096 [1] [0] [0] [1] [] []
  dot_S16384x4096_S4096x1024_S16384x1024_1_0_0_1_n_n_wf : DotDims.WF S16384x4096 S4096x1024 S16384x1024 [1] [0] [0] [1] [] []
  dot_S16384x1024_S1024x1024_S16384x1024_1_0_0_1_n_n_wf : DotDims.WF S16384x1024 S1024x1024 S16384x1024 [1] [0] [0] [1] [] []
  dot_S16384x1024_S1024x512_S16384x512_1_0_0_1_n_n_wf : DotDims.WF S16384x1024 S1024x512 S16384x512 [1] [0] [0] [1] [] []
  dot_S16384x512_S512x1000_S16384x1000_1_0_0_1_n_n_wf : DotDims.WF S16384x512 S512x1000 S16384x1000 [1] [0] [0] [1] [] []

variable [Facts₀]

def dot_S16384x1024_S1024x4096_S16384x4096_1_0_0_1_n_n : DotDims S16384x1024 S1024x4096 S16384x4096 where
  lhsContracting := [1]
  rhsContracting := [0]
  lhsNonContracting := [0]
  rhsNonContracting := [1]
  lhsBatch := []
  rhsBatch := []
  wf := dot_S16384x1024_S1024x4096_S16384x4096_1_0_0_1_n_n_wf
def dot_S16384x4096_S4096x1024_S16384x1024_1_0_0_1_n_n : DotDims S16384x4096 S4096x1024 S16384x1024 where
  lhsContracting := [1]
  rhsContracting := [0]
  lhsNonContracting := [0]
  rhsNonContracting := [1]
  lhsBatch := []
  rhsBatch := []
  wf := dot_S16384x4096_S4096x1024_S16384x1024_1_0_0_1_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf
def dot_S16384x512_S512x1000_S16384x1000_1_0_0_1_n_n : DotDims S16384x512 S512x1000 S16384x1000 where
  lhsContracting := [1]
  rhsContracting := [0]
  lhsNonContracting := [0]
  rhsNonContracting := [1]
  lhsBatch := []
  rhsBatch := []
  wf := dot_S16384x512_S512x1000_S16384x1000_1_0_0_1_n_n_wf

class Facts : Prop extends Facts₀ where

variable [Facts]
-- ==== Proof.Spec.lean ====
/-
  The network, one row at a time, over the extended reals.

  A row `a` of the batch passes through four dense layers, each `o ↦ max (∑ k, a k · W (k, o) + b o) 0`, then a
  linear layer without bias, then a log-softmax over its 1000 classes: `z q - M - log (∑ k, exp (z k - M))` with
  `M` the largest entry of the row. The largest entry is taken as the fold of `max` from `-∞`, which is how both
  programs take it.

  A row that carries extra trailing entries equal to `-∞` has the same largest entry and the same sum of
  exponentials as the row without them (`-∞ - x = -∞` for every `x`, and `exp (-∞) = 0`), so its log-softmax at a
  genuine entry is the shorter row's.
-/
import Idealize.ShloMosaic.PureOps.Ideal
import Idealize.ShloMosaic.Lib.ValueIdx

noncomputable section

namespace Cert.Mlp

open Idealize.ShloMosaic Idealize.ShloMosaic.ValueIdx

/-- Row `p` of a matrix. -/
def rowOf {M N : ℕ} (x : (⟨2, ![M, N]⟩ : Shape).Idx → EReal) (p : Fin M) : Fin N → EReal := fun o => x (ix2 p o)

/-- A vector as a function of its one coordinate. -/
def vec {N : ℕ} (b : (⟨1, ![N]⟩ : Shape).Idx → EReal) : Fin N → EReal := fun o => b (ix1 o)

/-- A row times a matrix: entry `o` is the sum over `k` of `a k · W (k, o)`. -/
def lin {K N : ℕ} (a : Fin K → EReal) (W : (⟨2, ![K, N]⟩ : Shape).Idx → EReal) : Fin N → EReal :=
  fun o => ∑ k, a k * W (ix2 k o)

/-- Adding a bias row and clamping at zero. -/
def biasRelu {N : ℕ} (y b : Fin N → EReal) : Fin N → EReal := fun o => max (y o + b o) 0

/-- A dense layer with bias and ReLU. -/
def dense {K N : ℕ} (a : Fin K → EReal) (W : (⟨2, ![K, N]⟩ : Shape).Idx → EReal) (b : Fin N → EReal) : Fin N → EReal :=
  biasRelu (lin a W) b

/-- The largest entry of a row, from `-∞`. -/
def rowMax {N : ℕ} (z : Fin N → EReal) : EReal := Finset.univ.fold max ⊥ z

/-- The log-softmax of a row. -/
def logSoftmax {N : ℕ} (z : Fin N → EReal) : Fin N → EReal :=
  fun q => (z q - rowMax z) - Ideal.log (∑ k, Ideal.exp (z k - rowMax z))

/-- A row whose entries from position `n` on are replaced by `-∞`. -/
def padBot (n : ℕ) {N : ℕ} (z : Fin N → EReal) : Fin N → EReal := fun q => if q.val < n then z q else ⊥

/-- The weights and biases of the four hidden layers, the weights already laid out input-major. -/
structure Hidden where
  W1 : (⟨2, ![1024, 4096]⟩ : Shape).Idx → EReal
  b1 : Fin 4096 → EReal
  W2 : (⟨2, ![4096, 1024]⟩ : Shape).Idx → EReal
  b2 : Fin 1024 → EReal
  W3 : (⟨2, ![1024, 1024]⟩ : Shape).Idx → EReal
  b3 : Fin 1024 → EReal
  W4 : (⟨2, ![1024, 512]⟩ : Shape).Idx → EReal
  b4 : Fin 512 → EReal

/-- The first three hidden layers and the fourth layer's product, on a row. -/
def pre4 (θ : Hidden) (a : Fin 1024 → EReal) : Fin 512 → EReal :=
  lin (dense (dense (dense a θ.W1 θ.b1) θ.W2 θ.b2) θ.W3 θ.b3) θ.W4

/-- The four hidden layers on a row. -/
def hidden (θ : Hidden) (a : Fin 1024 → EReal) : Fin 512 → EReal := biasRelu (pre4 θ a) θ.b4

/-- The whole network: entry (r, q) of the result is the log-softmax, at class `q`, of the logits of row `r`. -/
def out (θ : Hidden) (W5 : (⟨2, ![512, 1000]⟩ : Shape).Idx → EReal) (X : (⟨2, ![16384, 1024]⟩ : Shape).Idx → EReal) :
    (⟨2, ![16384, 1000]⟩ : Shape).Idx → EReal :=
  fun j => logSoftmax (lin (hidden θ (rowOf X (j 0))) W5) (j 1)

theorem out_ix2 (θ : Hidden) (W5 : (⟨2, ![512, 1000]⟩ : Shape).Idx → EReal) (X : (⟨2, ![16384, 1024]⟩ : Shape).Idx → EReal)
    (r : Fin 16384) (q : Fin 1000) : out θ W5 X (ix2 r q) = logSoftmax (lin (hidden θ (rowOf X r)) W5) q := rfl

/-! ## Trailing entries at `-∞` -/

/-- The padded row's largest entry is the short row's. -/
theorem rowMax_padBot {n N : ℕ} (h : n ≤ N) (z : Fin N → EReal) :
    rowMax (padBot n z) = rowMax (fun q : Fin n => z (Fin.castLE h q)) := by
  unfold rowMax
  apply le_antisymm
  · rw [Finset.fold_max_le]
    refine ⟨bot_le, fun q _ => ?_⟩
    unfold padBot
    split
    · rename_i hq
      rw [Finset.le_fold_max]
      exact Or.inr ⟨⟨q.val, hq⟩, Finset.mem_univ _, le_of_eq (congrArg z (Fin.ext rfl))⟩
    · exact bot_le
  · rw [Finset.fold_max_le]
    refine ⟨bot_le, fun q _ => ?_⟩
    rw [Finset.le_fold_max]
    refine Or.inr ⟨Fin.castLE h q, Finset.mem_univ _, ?_⟩
    unfold padBot
    rw [if_pos (show (Fin.castLE h q).val < n from q.isLt)]

/-- A sum whose terms vanish from position `n` on is the sum of its first `n` terms. -/
theorem sum_padZero {n N : ℕ} (h : n ≤ N) (g : Fin N → EReal) (hg : ∀ q : Fin N, ¬ q.val < n → g q = 0) :
    ∑ q, g q = ∑ p : Fin n, g (Fin.castLE h p) := by
  have e : ∑ p : Fin n, g (Fin.castLE h p) = ∑ q ∈ Finset.univ.map (Fin.castLEEmb h), g q := by
    rw [Finset.sum_map]; rfl
  rw [e]
  symm
  apply Finset.sum_subset (Finset.subset_univ _)
  intro q _ hq
  apply hg
  intro hlt
  exact hq (Finset.mem_map.2 ⟨⟨q.val, hlt⟩, Finset.mem_univ _, Fin.ext rfl⟩)

/-- The log-softmax of a padded row, at a genuine entry, is the short row's. -/
theorem logSoftmax_padBot {n N : ℕ} (h : n ≤ N) (z : Fin N → EReal) (q : Fin n) :
    logSoftmax (padBot n z) (Fin.castLE h q) = logSoftmax (fun q' : Fin n => z (Fin.castLE h q')) q := by
  unfold logSoftmax
  rw [rowMax_padBot h z]
  have hs : ∑ k, Ideal.exp (padBot n z k - rowMax fun q' : Fin n => z (Fin.castLE h q'))
      = ∑ k : Fin n, Ideal.exp (z (Fin.castLE h k) - rowMax fun q' : Fin n => z (Fin.castLE h q')) := by
    rw [sum_padZero h _ (fun k hk => by unfold padBot; rw [if_neg hk, EReal.bot_sub]; rfl)]
    refine Finset.sum_congr rfl fun k _ => ?_
    unfold padBot
    rw [if_pos (show (Fin.castLE h k).val < n from k.isLt)]
  rw [hs]
  unfold padBot
  rw [if_pos (show (Fin.castLE h q).val < n from q.isLt)]

/-- The same with the padded logits: a last layer whose weight matrix has extra columns, the extra logits then put
    at `-∞`, gives at a genuine class the log-softmax of the genuine logits. -/
theorem logSoftmax_padded_lin {K : ℕ} (a : Fin K → EReal) (W5p : (⟨2, ![K, 1024]⟩ : Shape).Idx → EReal)
    (W5 : (⟨2, ![K, 1000]⟩ : Shape).Idx → EReal)
    (hW : ∀ (k : Fin K) (o : Fin 1000), W5p (ix2 k (Fin.castLE (by decide : 1000 ≤ 1024) o)) = W5 (ix2 k o)) (q : Fin 1000) :
    logSoftmax (padBot 1000 (lin a W5p)) (Fin.castLE (by decide : 1000 ≤ 1024) q) = logSoftmax (lin a W5) q := by
  rw [logSoftmax_padBot (by decide : 1000 ≤ 1024) (lin a W5p) q]
  refine congrFun (congrArg logSoftmax (funext fun o => ?_)) q
  unfold lin
  exact Finset.sum_congr rfl fun k _ => congrArg (a k * ·) (hW k o)

end Cert.Mlp

end
-- ==== Proof.LibPlainDot.lean ====
/-
  A plain matrix product read at an index.

  For the dimension numbers of an M × K by K × N product (contract the left operand's columns with the right
  operand's rows, no batch axis), the sum over the contraction index that a matmul or a dot_general denotes at the
  ideal values is the familiar one: at row p and column q, the sum over k of l (p, k) · r (k, q). General in M, K, N;
  a program's own record of these dimension numbers is this one up to its proof field.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

theorem contr_rank : (DotDims.plain M K N).contr.rank = 1 := rfl
theorem contr_size : (DotDims.plain M K N).contr.size ⟨0, by rw [contr_rank]; exact Nat.one_pos⟩ = K := rfl

/-- The contraction index of a plain product is its one coordinate, a column of the left operand. -/
abbrev kEquiv : (DotDims.plain M K N).contr.Idx ≃ Fin K := contrEquiv1 (DotDims.plain M K N) K (contr_rank M K N) (contr_size M K N)

/-- The left operand is read at (row of the result, k). -/
theorem lhsIdx_eq (j : (⟨2, ![M, N]⟩ : Shape).Idx) (k : Fin K) :
    (DotDims.plain M K N).lhsIdx j ((kEquiv M K N).symm k) = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand is read at (k, column of the result). -/
theorem rhsIdx_eq (j : (⟨2, ![M, N]⟩ : Shape).Idx) (k : Fin K) :
    (DotDims.plain M K N).rhsIdx j ((kEquiv M K N).symm k) = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The contraction sum of a plain product, over the column index. -/
theorem sum_eq (l : (⟨2, ![M, K]⟩ : Shape).Idx → EReal) (r : (⟨2, ![K, N]⟩ : Shape).Idx → EReal) (j : (⟨2, ![M, N]⟩ : Shape).Idx) :
    (∑ kk : (DotDims.plain M K N).contr.Idx, l ((DotDims.plain M K N).lhsIdx j kk) * r ((DotDims.plain M K N).rhsIdx j kk))
      = ∑ k : Fin K, l (ix2 (j 0) k) * r (ix2 k (j 1)) := by
  rw [← Equiv.sum_comp (kEquiv M K N).symm]
  exact Finset.sum_congr rfl fun k _ =>
    congrArg₂ (· * ·) (congrArg l (lhsIdx_eq M K N j k)) (congrArg r (rhsIdx_eq M K N j k))

variable {φ₁ φ₂ : FTy}

/-- A kernel's matmul into the zero accumulator, at (p, q). -/
theorem matmul_zero_apply (prec : Option ContractPrecision) (l : FVec Ideal ⟨2, ![M, K]⟩ φ₁) (r : FVec Ideal ⟨2, ![K, N]⟩ φ₂)
    (p : Fin M) (q : Fin N) :
    matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (sum_eq M K N l r (ix2 p q))

/-- The host's dot_general, at (p, q). -/
theorem dotGeneral_apply (prec : Option ContractPrecision) (l : FVec Ideal ⟨2, ![M, K]⟩ φ₁) (r : FVec Ideal ⟨2, ![K, N]⟩ φ₂)
    (p : Fin M) (q : Fin N) :
    Host.dotGeneral (DotDims.plain M K N) prec l r (ix2 p q) = ∑ k : Fin K, l (ix2 p k) * r (ix2 k q) :=
  (Ideal.dotGeneral_apply (DotDims.plain M K N) prec _ l r (ix2 p q)).trans (sum_eq M K N l r (ix2 p q))

end Idealize.ShloMosaic.PlainDot

end
-- ==== Proof.LibColumns.lean ====
/-
  Column layouts read at an index.

  The three keepdims forms of a column: a vector of length a cast to an a × 1 column, such a column cast back
  to the vector, and a column broadcast along a new trailing extent b. Each reads the operand at the row; the unit
  coordinate carries no information. General in a and b.
-/
import Idealize.ShloMosaic.Lib.ValueIdx
import Idealize.ShloMosaic.Lib.ValueLayout
import Idealize.ShloMosaic.Lib.Pipeline.Value

noncomputable section

namespace Idealize.ShloMosaic.Columns

open Idealize.ShloMosaic Idealize.ShloMosaic.ValueIdx

variable {α : Type}

/-- A vector cast to a column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column cast to a vector reads, at i, the column at (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A column broadcast to b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Columns

end
-- ==== Proof.KernelBody.lean ====
/-
  What the kernel body computes, row by row.

  At a grid point the body holds a block of 256 rows of the input and the five weight matrices whole. Each of its four
  hidden layers is a matrix product with a zero accumulator, a bias row broadcast down the rows, and a clamp at zero; a
  change of float format is the identity on the extended reals. So row `p` of a layer's result depends only on row
  `p` of its operand: it is the dense layer of the specification applied to that row. The fifth product gives 1024
  logits per row; the columns from 1000 on are replaced by the constant named `neg_big`, which denotes `-∞`; the
  row maximum, the shift, the exponentials' sum and the logarithm follow. Row `p` of the stored block is therefore
  the log-softmax of row `p`'s logits with their last 24 entries at `-∞`.
-/
import proofs.«426159_j81003083203269_3_alg».proof.Proof.Gen.KernelIdeal.Skeleton
import proofs.«426159_j81003083203269_3_alg».proof.Proof.Spec
import proofs.«426159_j81003083203269_3_alg».proof.Proof.LibPlainDot
import proofs.«426159_j81003083203269_3_alg».proof.Proof.LibColumns
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value

noncomputable section

namespace Cert.Mlp.Body

open Idealize.ShloMosaic Idealize.ShloMosaic.ValueIdx Cert.KernelIdeal Cert.KernelIdeal.Gen Cert.Mlp

/-! ## One layer, read along a row -/

/-- Row `p` of a product into the zero accumulator is row `p` of the left operand times the right operand. -/
theorem lin_row {M K N : ℕ} (D : DotDims ⟨2, ![M, K]⟩ ⟨2, ![K, N]⟩ ⟨2, ![M, N]⟩) (hD : D = DotDims.plain M K N)
    (a : FVec Ideal ⟨2, ![M, K]⟩ .f32) (W : FVec Ideal ⟨2, ![K, N]⟩ .bf16)
    (hb : FTy.bf16.bits < FTy.f32.bits) (hW : (⟨2, ![K, N]⟩ : Shape).ShapeCasts ⟨2, ![K, N]⟩) (p : Fin M) :
    rowOf (matmul D none (truncf .bf16 a hb) (shapeCast ⟨2, ![K, N]⟩ W hW) (constant ⟨2, ![M, N]⟩ .f32 0x00000000#32)) p
      = lin (rowOf a p) W := by
  subst hD
  funext o
  refine (PlainDot.matmul_zero_apply M K N none (truncf .bf16 a hb) (shapeCast ⟨2, ![K, N]⟩ W hW) p o).trans ?_
  rw [shapeCast_self]
  rfl

/-- Row `p` after the bias row is added and the result clamped at zero. -/
theorem biasRelu_row {M N : ℕ} (y : FVec Ideal ⟨2, ![M, N]⟩ .f32) (b : FVec Ideal ⟨2, ![1, N]⟩ .f32)
    (hc : (⟨2, ![1, N]⟩ : Shape).ShapeCasts ⟨2, ![1, N]⟩) (hbc : (⟨2, ![1, N]⟩ : Shape).Broadcasts ⟨2, ![M, N]⟩) (p : Fin M) :
    rowOf (maximumf (addf y (broadcastTo ⟨2, ![M, N]⟩ (shapeCast ⟨2, ![1, N]⟩ b hc) hbc))
        (broadcast ⟨2, ![M, N]⟩ (Scalar.ofBits (F := Ideal) .f32 0x00000000#32))) p
      = biasRelu (rowOf y p) (rowOf b (0 : Fin 1)) := by
  funext o
  show max (y (ix2 p o) + broadcastTo ⟨2, ![M, N]⟩ (shapeCast ⟨2, ![1, N]⟩ b hc) hbc (ix2 p o)) (Ideal.ofBits .f32 0x00000000#32) = _
  rw [broadcastTo_1b_ab_apply, shapeCast_self, Ideal.ofBits_zero_f32]
  rfl

/-! ## The masked log-softmax -/

/-- The named fill denotes `-∞`. -/
theorem negBig_eq : Named.named (F := Ideal) Cert.KernelIdeal.κ "neg_big" (φ := .f32) 0xFF333332#32 = (⊥ : EReal) :=
  IdealRules.named_const.ideal_named_scalar _ _ _ _ rfl

/-- The logits with the columns from 1000 on replaced by the fill. -/
def masked (y : FVec Ideal S256x1024 .f32) : FVec Ideal S256x1024 .f32 :=
  select (cmpi .slt (iota .tc S256x1024 32 [1] iota_S256x1024_d1_w32) (broadcast S256x1024 (1000#32 : BitVec 32))) y
    (broadcast S256x1024 (Named.named (F := Ideal) κ "neg_big" (φ := .f32) 0xFF333332#32))

/-- A column number below 1024, compared signed with 1000. -/
theorem slt_1000 : ∀ q : Fin 1024, IntOp.cmpi .slt (BitVec.ofNat 32 q.val) (1000#32) = if q.val < 1000 then 1#1 else 0#1 := by
  decide +kernel

theorem masked_row (y : FVec Ideal S256x1024 .f32) (p : Fin 256) : rowOf (masked y) p = padBot 1000 (rowOf y p) := by
  funext q
  show Scalar.select (IntOp.cmpi .slt (iota .tc S256x1024 32 [1] iota_S256x1024_d1_w32 (ix2 p q)) (1000#32))
      (y (ix2 p q)) (Named.named (F := Ideal) κ "neg_big" (φ := .f32) 0xFF333332#32) = _
  rw [iota_single_apply, negBig_eq]
  show Scalar.select (IntOp.cmpi .slt (BitVec.ofNat 32 q.val) (1000#32)) (y (ix2 p q)) (⊥ : EReal) = _
  rw [slt_1000 q]
  unfold padBot rowOf
  by_cases h : q.val < 1000
  · rw [if_pos h, if_pos h]; exact select_one _ _
  · rw [if_neg h, if_neg h]; exact select_zero _ _

/-- The index over row `p` with column `k` put back. -/
theorem lift_row (p : Fin 256) (k : Fin (S256x1024.size 1)) :
    reduces_S256x1024_S256.lift (ix1 p) k = ix2 p (⟨k.val, k.isLt⟩ : Fin 1024) := by
  funext c; apply Fin.ext; fin_cases c <;> rfl

/-- A row's maximum from `-∞`. -/
theorem rowMax_apply (v : FVec Ideal S256x1024 .f32) (p : Fin 256) :
    multiReduction .maximumf [1] S256 v 0xFF800000#32 reduces_S256x1024_S256 (.inl rfl) rfl (ix1 p) = rowMax (rowOf v p) := by
  refine (Ideal.multiReduction_maximumf_single v (0xFF800000#32) reduces_S256x1024_S256 (.inl rfl) rfl (ix1 p)).trans ?_
  have hb : (FloatOps.ofBits (F := Ideal) .f32 0xFF800000#32) = (⊥ : EReal) := by simp [Ideal.ofBits, Ideal.ieee]
  rw [hb]
  have hf : (v ∘ reduces_S256x1024_S256.lift (ix1 p)) = fun k : Fin 1024 => v (ix2 p k) :=
    funext fun k => congrArg v (lift_row p k)
  exact congrArg (fun f => Finset.fold max (⊥ : EReal) f (Finset.univ : Finset (Fin 1024))) hf

/-- A row's sum. -/
theorem rowSum_apply (v : FVec Ideal S256x1024 .f32) (p : Fin 256) :
    multiReduction .add [1] S256 v 0x00000000#32 reduces_S256x1024_S256 (.inl rfl) rfl (ix1 p) = ∑ k : Fin 1024, v (ix2 p k) := by
  refine (Ideal.multiReduction_add_single v (0x00000000#32) reduces_S256x1024_S256 (.inl rfl) rfl (ix1 p)).trans ?_
  exact Finset.sum_congr rfl fun k _ => congrArg v (lift_row p k)

/-- A per-row value laid out as a column and broadcast along the row reads the row's value. -/
theorem col_bcast (u : FVec Ideal S256 .f32) (p : Fin 256) (q : Fin 1024) :
    broadcastTo S256x1024 (shapeCast S256x1 u shapeCasts_S256_S256x1) broadcasts_S256x1_S256x1024 (ix2 p q) = u (ix1 p) :=
  (Columns.broadcastTo_a1_ab_apply _ broadcasts_S256x1_S256x1024 p q).trans
    (Columns.shapeCast_a_a1_apply u shapeCasts_S256_S256x1 p 0)

/-- A row shifted by its maximum. -/
def shifted (v : FVec Ideal S256x1024 .f32) : FVec Ideal S256x1024 .f32 :=
  subf v (broadcastTo S256x1024 (shapeCast S256x1
    (multiReduction .maximumf [1] S256 v 0xFF800000#32 reduces_S256x1024_S256 (.inl rfl) rfl) shapeCasts_S256_S256x1)
    broadcasts_S256x1_S256x1024)

/-- The logarithm of each row's sum of exponentials, as a column. -/
def lse (v : FVec Ideal S256x1024 .f32) : FVec Ideal S256x1 .f32 :=
  log (shapeCast S256x1 (multiReduction .add [1] S256 (exp v) 0x00000000#32 reduces_S256x1024_S256 (.inl rfl) rfl)
    shapeCasts_S256_S256x1)

/-- The tail of the body after the fifth product `y`: mask, shift by the row maximum, subtract the logarithm of the
    row's sum of exponentials. -/
def tail (y : FVec Ideal S256x1024 .f32) : FVec Ideal S256x1024 .f32 :=
  subf (shifted (masked y)) (broadcastTo S256x1024 (lse (shifted (masked y))) broadcasts_S256x1_S256x1024)

theorem shifted_row (v : FVec Ideal S256x1024 .f32) (p : Fin 256) :
    rowOf (shifted v) p = fun q => rowOf v p q - rowMax (rowOf v p) := by
  funext q
  show v (ix2 p q) - broadcastTo S256x1024 (shapeCast S256x1
    (multiReduction .maximumf [1] S256 v 0xFF800000#32 reduces_S256x1024_S256 (.inl rfl) rfl) shapeCasts_S256_S256x1)
    broadcasts_S256x1_S256x1024 (ix2 p q) = _
  rw [col_bcast, rowMax_apply]
  rfl

theorem lse_apply (v : FVec Ideal S256x1024 .f32) (p : Fin 256) :
    lse v (ix2 p (0 : Fin 1)) = Ideal.log (∑ k : Fin 1024, Ideal.exp (v (ix2 p k))) := by
  show Ideal.log (shapeCast S256x1 (multiReduction .add [1] S256 (exp v) 0x00000000#32 reduces_S256x1024_S256 (.inl rfl) rfl)
    shapeCasts_S256_S256x1 (ix2 p (0 : Fin 1))) = _
  rw [Columns.shapeCast_a_a1_apply, rowSum_apply]
  rfl

/-- Row `p` of the tail is the log-softmax of row `p` of the logits with the last 24 entries at `-∞`. -/
theorem tail_row (y : FVec Ideal S256x1024 .f32) (p : Fin 256) : rowOf (tail y) p = logSoftmax (padBot 1000 (rowOf y p)) := by
  funext q
  show shifted (masked y) (ix2 p q) - broadcastTo S256x1024 (lse (shifted (masked y))) broadcasts_S256x1_S256x1024 (ix2 p q) = _
  rw [Columns.broadcastTo_a1_ab_apply, lse_apply]
  have hs := shifted_row (masked y) p
  rw [masked_row] at hs
  have e : ∀ k : Fin 1024, shifted (masked y) (ix2 p k)
      = padBot 1000 (rowOf y p) k - rowMax (padBot 1000 (rowOf y p)) := fun k => congrFun hs k
  simp only [e]
  rfl

/-! ## The two payloads -/

/-- The fifth product: the fourth layer's bias and clamp, then the product with the padded last weight matrix. -/
def logits5 (v34 : FVec Ideal S256x512 .f32) (x8 : FVec Ideal S1x512 .f32) (x9 : FVec Ideal S512x1024 .bf16) : FVec Ideal S256x1024 .f32 :=
  matmul dot_S256x512_S512x1024_S256x1024_1_0_0_1_n_n none
    (truncf .bf16 (maximumf (addf v34 (broadcastTo S256x512 (shapeCast S1x512 x8 shapeCasts_S1x512_S1x512) broadcasts_S1x512_S256x512))
      (broadcast S256x512 (Scalar.ofBits (F := Ideal) .f32 0x00000000#32))) bitsLt_bf16_f32)
    (shapeCast S512x1024 x9 shapeCasts_S512x1024_S512x1024) (constant S256x1024 .f32 0x00000000#32)

theorem pay1_eq (v34 : FVec Ideal S256x512 .f32) (x8 : FVec Ideal S1x512 .f32) (x9 : FVec Ideal S512x1024 .bf16) :
    k0_pay1 (F := Ideal) v34 x8 x9 = tail (logits5 v34 x8 x9) := rfl

theorem pay1_row (v34 : FVec Ideal S256x512 .f32) (x8 : FVec Ideal S1x512 .f32) (x9 : FVec Ideal S512x1024 .bf16) (p : Fin 256) :
    rowOf (k0_pay1 (F := Ideal) v34 x8 x9) p
      = logSoftmax (padBot 1000 (lin (biasRelu (rowOf v34 p) (rowOf x8 (0 : Fin 1))) x9)) := by
  rw [pay1_eq]
  refine (tail_row _ p).trans ?_
  refine congrArg (fun z => logSoftmax (padBot 1000 z)) ?_
  refine (lin_row dot_S256x512_S512x1024_S256x1024_1_0_0_1_n_n rfl _ x9 bitsLt_bf16_f32 shapeCasts_S512x1024_S512x1024 p).trans ?_
  exact congrArg (fun a => lin a x9) (biasRelu_row v34 x8 shapeCasts_S1x512_S1x512 broadcasts_S1x512_S256x512 p)

theorem pay2_row (x0 : FVec Ideal S256x1024 .f32) (x1 : FVec Ideal S1024x4096 .bf16) (x2 : FVec Ideal S1x4096 .f32)
    (x3 : FVec Ideal S4096x1024 .bf16) (x4 : FVec Ideal S1x1024 .f32) (x5 : FVec Ideal S1024x1024 .bf16) (x6 : FVec Ideal S1x1024 .f32)
    (x7 : FVec Ideal S1024x512 .bf16) (p : Fin 256) :
    rowOf (k0_pay2 (F := Ideal) x0 x1 x2 x3 x4 x5 x6 x7) p
      = lin (dense (dense (dense (rowOf x0 p) x1 (rowOf x2 (0 : Fin 1))) x3 (rowOf x4 (0 : Fin 1))) x5 (rowOf x6 (0 : Fin 1))) x7 := by
  dsimp only [k0_pay2]
  refine (lin_row dot_S256x1024_S1024x512_S256x512_1_0_0_1_n_n rfl _ x7 bitsLt_bf16_f32 shapeCasts_S1024x512_S1024x512 p).trans ?_
  refine congrArg (fun a => lin a x7) ?_
  refine (biasRelu_row _ x6 shapeCasts_S1x1024_S1x1024 broadcasts_S1x1024_S256x1024 p).trans ?_
  refine congrArg (fun y => biasRelu y (rowOf x6 (0 : Fin 1))) ?_
  refine (lin_row dot_S256x1024_S1024x1024_S256x1024_1_0_0_1_n_n rfl _ x5 bitsLt_bf16_f32 shapeCasts_S1024x1024_S1024x1024 p).trans ?_
  refine congrArg (fun a => lin a x5) ?_
  refine (biasRelu_row _ x4 shapeCasts_S1x1024_S1x1024 broadcasts_S1x1024_S256x1024 p).trans ?_
  refine congrArg (fun y => biasRelu y (rowOf x4 (0 : Fin 1))) ?_
  refine (lin_row dot_S256x4096_S4096x1024_S256x1024_1_0_0_1_n_n rfl _ x3 bitsLt_bf16_f32 shapeCasts_S4096x1024_S4096x1024 p).trans ?_
  refine congrArg (fun a => lin a x3) ?_
  refine (biasRelu_row _ x2 shapeCasts_S1x4096_S1x4096 broadcasts_S1x4096_S256x4096 p).trans ?_
  refine congrArg (fun y => biasRelu y (rowOf x2 (0 : Fin 1))) ?_
  exact lin_row dot_S256x1024_S1024x4096_S256x4096_1_0_0_1_n_n rfl x0 x1 bitsLt_bf16_f32 shapeCasts_S1024x4096_S1024x4096 p

/-- The hidden layers' parameters as the body holds them: the weight blocks whole, each bias the one row of its block. -/
def θK (x1 : FVec Ideal S1024x4096 .bf16) (x2 : FVec Ideal S1x4096 .f32) (x3 : FVec Ideal S4096x1024 .bf16) (x4 : FVec Ideal S1x1024 .f32)
    (x5 : FVec Ideal S1024x1024 .bf16) (x6 : FVec Ideal S1x1024 .f32) (x7 : FVec Ideal S1024x512 .bf16) (x8 : FVec Ideal S1x512 .f32) : Hidden :=
  ⟨x1, rowOf x2 (0 : Fin 1), x3, rowOf x4 (0 : Fin 1), x5, rowOf x6 (0 : Fin 1), x7, rowOf x8 (0 : Fin 1)⟩

/-- Row `p` of what the body stores: the log-softmax of the row's 1024 logits with the last 24 at `-∞`. -/
theorem body_row (x0 : FVec Ideal S256x1024 .f32) (x1 : FVec Ideal S1024x4096 .bf16) (x2 : FVec Ideal S1x4096 .f32)
    (x3 : FVec Ideal S4096x1024 .bf16) (x4 : FVec Ideal S1x1024 .f32) (x5 : FVec Ideal S1024x1024 .bf16) (x6 : FVec Ideal S1x1024 .f32)
    (x7 : FVec Ideal S1024x512 .bf16) (x8 : FVec Ideal S1x512 .f32) (x9 : FVec Ideal S512x1024 .bf16) (p : Fin 256) :
    rowOf (k0_pay1 (F := Ideal) (k0_pay2 (F := Ideal) x0 x1 x2 x3 x4 x5 x6 x7) x8 x9) p
      = logSoftmax (padBot 1000 (lin (hidden (θK x1 x2 x3 x4 x5 x6 x7 x8) (rowOf x0 p)) x9)) := by
  refine (pay1_row _ x8 x9 p).trans ?_
  rw [pay2_row]
  rfl

end Cert.Mlp.Body

end
-- ==== Proof.KernelValue.lean ====
/-
  From the body's blocks to the kernel's result.

  The grid has 64 points; point `t` holds rows 256 t … 256 t + 255 of the input and writes the same rows of a
  16384 × 1024 array; the five weight matrices and four bias rows are whole at every point. By the row-by-row reading
  of the body, row `p` of what point `t` writes is the log-softmax of the 1024 logits of input row 256 t + p with
  their last 24 entries at `-∞`, so every written block is a block of ONE array `GK`, and the blocks cover it. The
  line after the region keeps the first 1000 columns.
-/
import proofs.«426159_j81003083203269_3_alg».proof.Proof.Gen.KernelIdeal.Frame
import proofs.«426159_j81003083203269_3_alg».proof.Proof.KernelBody
import Idealize.ShloMosaic.Lib.Pipeline.Value
import Idealize.ShloMosaic.Lib.Tactic
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.Mlp.KValue

open Cert.KernelIdeal Cert.KernelIdeal.Gen Cert.Mlp Cert.Mlp.Body

variable (m : (ℓ : Loc nD τ sig) → Buf (Elt Ideal) ℓ) (ρ : Dev nD → PrngReg)

theorem hz : (![0, 0] : Fin 2 → Nat) = fun _ => 0 := funext fun a => by fin_cases a <;> rfl

/-! ## The arrays the region finds, by their literal types -/

abbrev xArr (c : Dev nD) : FVec Ideal S16384x1024 .f32 := V m c main_arg0
abbrev w1Arr (c : Dev nD) : FVec Ideal S1024x4096 .bf16 := V m c main_v7
abbrev b1Arr (c : Dev nD) : FVec Ideal S1x4096 .f32 := V m c main_v42
abbrev w2Arr (c : Dev nD) : FVec Ideal S4096x1024 .bf16 := V m c main_v15
abbrev b2Arr (c : Dev nD) : FVec Ideal S1x1024 .f32 := V m c main_v43
abbrev w3Arr (c : Dev nD) : FVec Ideal S1024x1024 .bf16 := V m c main_v23
abbrev b3Arr (c : Dev nD) : FVec Ideal S1x1024 .f32 := V m c main_v44
abbrev w4Arr (c : Dev nD) : FVec Ideal S1024x512 .bf16 := V m c main_v31
abbrev b4Arr (c : Dev nD) : FVec Ideal S1x512 .f32 := V m c main_v45
abbrev w5Arr (c : Dev nD) : FVec Ideal S512x1024 .bf16 := V m c main_v41

/-- The hidden layers' parameters as the region finds them. -/
def θ (c : Dev nD) : Hidden :=
  θK (w1Arr m c) (b1Arr m c) (w2Arr m c) (b2Arr m c) (w3Arr m c) (b3Arr m c) (w4Arr m c) (b4Arr m c)

/-- The padded result: entry (r, q) is the log-softmax, at q, of row r's 1024 logits with the last 24 at `-∞`. -/
def GK (c : Dev nD) : S16384x1024.Idx → EReal := fun i =>
  logSoftmax (padBot 1000 (lin (hidden (θ m c) (rowOf (xArr m c) (i 0))) (w5Arr m c))) (i 1)

/-! ## The index maps over the grid -/

/-- The input block and the output block move together down the rows, one block per point; every other window stays
    at block (0, 0). -/
theorem idx_facts : ∀ t : Fin cfg0.N,
    win0_0.index t (0 : Fin 2) = win0_10.index t (0 : Fin 2) ∧ win0_0.index t (1 : Fin 2) = 0
    ∧ win0_10.index t (1 : Fin 2) = 0 ∧ win0_10.index t (0 : Fin 2) ≤ 63
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- Every row block is some point's. -/
theorem idx_onto : ∀ q0 : Fin 64, ∃ t : Fin cfg0.N, win0_10.index t = ![q0.val, 0] :=
  (by decide +kernel : ∀ q0 : Fin 64, ∃ t : Fin grid0.N, win0_10.index t = ![q0.val, 0])

/-- Window 1's block is its whole array at every point. -/
theorem iblk1 (c : Dev nD) (t : Fin cfg0.N) : iblk m c 1 t = w1Arr m c := by
  have f := idx_facts t
  funext y
  show V m c main_v7 (((cfg0.win 1).blk t).view.emb y) = V m c main_v7 y
  refine congrArg (V m c main_v7) (funext fun a => Fin.ext ?_)
  match a with
  | ⟨0, _⟩ => show win0_1.index t (0 : Fin 2) * 1024 + 1 * (y 0).val = (y 0).val; omega
  | ⟨1, _⟩ => show win0_1.index t (1 : Fin 2) * 4096 + 1 * (y 1).val = (y 1).val; omega

/-- Window 2's block is its whole array at every point. -/
theorem iblk2 (c : Dev nD) (t : Fin cfg0.N) : iblk m c 2 t = b1Arr m c := by
  have f := idx_facts t
  funext y
  show V m c main_v42 (((cfg0.win 2).blk t).view.emb y) = V m c main_v42 y
  refine congrArg (V m c main_v42) (funext fun a => Fin.ext ?_)
  match a with
  | ⟨0, _⟩ => show win0_2.index t (0 : Fin 2) * 1 + 1 * (y 0).val = (y 0).val; omega
  | ⟨1, _⟩ => show win0_2.index t (1 : Fin 2) * 4096 + 1 * (y 1).val = (y 1).val; omega

/-- Window 3's block is its whole array at every point. -/
theorem iblk3 (c : Dev nD) (t : Fin cfg0.N) : iblk m c 3 t = w2Arr m c := by
  have f := idx_facts t
  funext y
  show V m c main_v15 (((cfg0.win 3).blk t).view.emb y) = V m c main_v15 y
  refine congrArg (V m c main_v15) (funext fun a => Fin.ext ?_)
  match a with
  | ⟨0, _⟩ => show win0_3.index t (0 : Fin 2) * 4096 + 1 * (y 0).val = (y 0).val; omega
  | ⟨1, _⟩ => show win0_3.index t (1 : Fin 2) * 1024 + 1 * (y 1).val = (y 1).val; omega

/-- Window 4's block is its whole array at every point. -/
theorem iblk4 (c : Dev nD) (t : Fin cfg0.N) : iblk m c 4 t = b2Arr m c := by
  have f := idx_facts t
  funext y
  show V m c main_v43 (((cfg0.win 4).blk t).view.emb y) = V m c main_v43 y
  refine congrArg (V m c main_v43) (funext fun a => Fin.ext ?_)
  match a with
  | ⟨0, _⟩ => show win0_4.index t (0 : Fin 2) * 1 + 1 * (y 0).val = (y 0).val; omega
  | ⟨1, _⟩ => show win0_4.index t (1 : Fin 2) * 1024 + 1 * (y 1).val = (y 1).val; omega

/-- Window 5's block is its whole array at every point. -/
theorem iblk5 (c : Dev nD) (t : Fin cfg0.N) : iblk m c 5 t = w3Arr m c := by
  have f := idx_facts t
  funext y
  show V m c main_v23 (((cfg0.win 5).blk t).view.emb y) = V m c main_v23 y
  refine congrArg (V m c main_v23) (funext fun a => Fin.ext ?_)
  match a with
  | ⟨0, _⟩ => show win0_5.index t (0 : Fin 2) * 1024 + 1 * (y 0).val = (y 0).val; omega
  | ⟨1, _⟩ => show win0_5.index t (1 : Fin 2) * 1024 + 1 * (y 1).val = (y 1).val; omega

/-- Window 6's block is its whole array at every point. -/
theorem iblk6 (c : Dev nD) (t : Fin cfg0.N) : iblk m c 6 t = b3Arr m c := by
  have f := idx_facts t
  funext y
  show V m c main_v44 (((cfg0.win 6).blk t).view.emb y) = V m c main_v44 y
  refine congrArg (V m c main_v44) (funext fun a => Fin.ext ?_)
  match a with
  | ⟨0, _⟩ => show win0_6.index t (0 : Fin 2) * 1 + 1 * (y 0).val = (y 0).val; omega
  | ⟨1, _⟩ => show win0_6.index t (1 : Fin 2) * 1024 + 1 * (y 1).val = (y 1).val; omega

/-- Window 7's block is its whole array at every point. -/
theorem iblk7 (c : Dev nD) (t : Fin cfg0.N) : iblk m c 7 t = w4Arr m c := by
  have f := idx_facts t
  funext y
  show V m c main_v31 (((cfg0.win 7).blk t).view.emb y) = V m c main_v31 y
  refine congrArg (V m c main_v31) (funext fun a => Fin.ext ?_)
  match a with
  | ⟨0, _⟩ => show win0_7.index t (0 : Fin 2) * 1024 + 1 * (y 0).val = (y 0).val; omega
  | ⟨1, _⟩ => show win0_7.index t (1 : Fin 2) * 512 + 1 * (y 1).val = (y 1).val; omega

/-- Window 8's block is its whole array at every point. -/
theorem iblk8 (c : Dev nD) (t : Fin cfg0.N) : iblk m c 8 t = b4Arr m c := by
  have f := idx_facts t
  funext y
  show V m c main_v45 (((cfg0.win 8).blk t).view.emb y) = V m c main_v45 y
  refine congrArg (V m c main_v45) (funext fun a => Fin.ext ?_)
  match a with
  | ⟨0, _⟩ => show win0_8.index t (0 : Fin 2) * 1 + 1 * (y 0).val = (y 0).val; omega
  | ⟨1, _⟩ => show win0_8.index t (1 : Fin 2) * 512 + 1 * (y 1).val = (y 1).val; omega

/-- Window 9's block is its whole array at every point. -/
theorem iblk9 (c : Dev nD) (t : Fin cfg0.N) : iblk m c 9 t = w5Arr m c := by
  have f := idx_facts t
  funext y
  show V m c main_v41 (((cfg0.win 9).blk t).view.emb y) = V m c main_v41 y
  refine congrArg (V m c main_v41) (funext fun a => Fin.ext ?_)
  match a with
  | ⟨0, _⟩ => show win0_9.index t (0 : Fin 2) * 512 + 1 * (y 0).val = (y 0).val; omega
  | ⟨1, _⟩ => show win0_9.index t (1 : Fin 2) * 1024 + 1 * (y 1).val = (y 1).val; omega

/-! ## What a point writes back -/

/-- What point `t` writes back is block `t` of `GK`. -/
theorem flushed_eq (c : Dev nD) (t : Fin cfg0.N) :
    (dats m 0 c).flushed 10 t = ((cfg0.win 10).blk t).view.read (Elt Ideal) (GK m c) := by
  show (cfg0.win 10).cut (grid0.coords t) ((dats m 0 c).after 10 t) = _
  rw [after0_10]
  unfold out0_10
  rw [View.canon_unit_zero hz]
  simp only [View.ld_unit_zero (S := S256x1024) hz, View.ld_unit_zero (S := S1024x4096) hz, View.ld_unit_zero (S := S1x4096) hz,
    View.ld_unit_zero (S := S4096x1024) hz, View.ld_unit_zero (S := S1x1024) hz, View.ld_unit_zero (S := S1024x1024) hz,
    View.ld_unit_zero (S := S1024x512) hz, View.ld_unit_zero (S := S1x512) hz, View.ld_unit_zero (S := S512x1024) hz]
  rw [iblk1 m c t, iblk2 m c t, iblk3 m c t, iblk4 m c t, iblk5 m c t, iblk6 m c t, iblk7 m c t, iblk8 m c t, iblk9 m c t]
  have f := idx_facts t
  funext j
  obtain ⟨p, q, rfl⟩ : ∃ (p : Fin 256) (q : Fin 1024), j = ix2 p q := ⟨j 0, j 1, eq_ix2 j⟩
  refine (congrFun (body_row (iblk m c 0 t) (w1Arr m c) (b1Arr m c) (w2Arr m c) (b2Arr m c) (w3Arr m c) (b3Arr m c) (w4Arr m c)
    (b4Arr m c) (w5Arr m c) p) q).trans ?_
  -- the array index this block entry is written to
  have e1 : ((((cfg0.win 10).blk t).view.emb (ix2 p q)) 1 : Fin 1024) = q :=
    Fin.ext (by show win0_10.index t (1 : Fin 2) * 1024 + 1 * q.val = q.val; omega)
  have e0 : rowOf (iblk m c 0 t) p = rowOf (xArr m c) (((cfg0.win 10).blk t).view.emb (ix2 p q) 0) := by
    funext k
    show V m c main_arg0 (((cfg0.win 0).blk t).view.emb (ix2 p k)) = V m c main_arg0 (ix2 (((cfg0.win 10).blk t).view.emb (ix2 p q) 0) k)
    refine congrArg (V m c main_arg0) (funext fun a => Fin.ext ?_)
    match a with
    | ⟨0, _⟩ => show win0_0.index t (0 : Fin 2) * 256 + 1 * p.val = win0_10.index t (0 : Fin 2) * 256 + 1 * p.val; omega
    | ⟨1, _⟩ => show win0_0.index t (1 : Fin 2) * 1024 + 1 * k.val = k.val; omega
  show logSoftmax (padBot 1000 (lin (hidden (θ m c) (rowOf (iblk m c 0 t) p)) (w5Arr m c))) q
    = logSoftmax (padBot 1000 (lin (hidden (θ m c) (rowOf (xArr m c) (((cfg0.win 10).blk t).view.emb (ix2 p q) 0))) (w5Arr m c)))
        (((cfg0.win 10).blk t).view.emb (ix2 p q) 1)
  rw [e0, e1]

/-! ## The blocks cover the array -/

/-- An index of the array is in point `t`'s block iff each coordinate is in the block's range on its axis. -/
theorem mem_blk (t : Fin cfg0.N) (i : S16384x1024.Idx) :
    i ∈ ((cfg0.win 10).blk t).view.set ↔ ∀ a : Fin 2, win0_10.index t a * S256x1024.size a ≤ (i a).val
      ∧ (i a).val < win0_10.index t a * S256x1024.size a + S256x1024.size a := by
  show i ∈ ((View.whole main_v46).slice (win0_10.rect t)).set ↔ _
  rw [View.set_slice_whole, Rect.mem_set_unit]
  exact Iff.rfl

/-- Row r lies in the block of point r / 256. -/
theorem cover (i : S16384x1024.Idx) : ∃ t : Fin cfg0.N, (cfg0.win 10).flush t = true ∧ i ∈ ((cfg0.win 10).blk t).view.set := by
  have hi0 : (i 0).val < 16384 := (i 0).isLt
  have hi1 : (i 1).val < 1024 := (i 1).isLt
  obtain ⟨t, ht⟩ := idx_onto ⟨(i 0).val / 256, by omega⟩
  have q0 : win0_10.index t (0 : Fin 2) = (i 0).val / 256 := congrFun ht 0
  have q1 : win0_10.index t (1 : Fin 2) = 0 := congrFun ht 1
  refine ⟨t, flush0_10 t, ?_⟩
  rw [mem_blk]
  intro a
  match a with
  | ⟨0, _⟩ => show win0_10.index t (0 : Fin 2) * 256 ≤ (i 0).val ∧ (i 0).val < win0_10.index t (0 : Fin 2) * 256 + 256; omega
  | ⟨1, _⟩ => show win0_10.index t (1 : Fin 2) * 1024 ≤ (i 1).val ∧ (i 1).val < win0_10.index t (1 : Fin 2) * 1024 + 1024; omega

/-- The padded array after the run is `GK`. -/
theorem final (c : Dev nD) : (dats m 0 c).arrAt 10 cfg0.N = GK m c :=
  (dats m 0 c).arrAt_eq_of_cover 10 (GK m c) (fun t _ => flushed_eq m c t) cover

/-! ## The line after the region, and the run -/

/-- The kernel's result: the padded array's first 1000 columns. -/
def outK (c : Dev nD) : S16384x1000.Idx → EReal := fun j => GK m c (ix2 (j 0) (Fin.castLE (by decide : 1000 ≤ 1024) (j 1)))

theorem result_eq (c : Dev nD) :
    Pipeline.afterTail₀ cfgs (dats m) 0 (V0 m) [hostOps1] c main_v47 = outK m c := by
  unfold Pipeline.afterTail₀
  show StableHlo.after hostOps1 _ (Proc.devRef .tc main_v47) = _
  after_results
  have hA : Pipeline.withArrays (cfgs 0).spec c (V0 m c) (fun w => (dats m 0 c).arrAt w (cfgs 0).N) (Proc.tc.devRef main_v46)
      = GK m c := (Pipeline.withArrays_arr spec0 launch0.win.arr_inj c _ _ 10).trans (final m c)
  rw [hA]
  funext j
  obtain ⟨r, q, rfl⟩ : ∃ (r : Fin 16384) (q : Fin 1000), j = ix2 r q := ⟨j 0, j 1, eq_ix2 j⟩
  refine extractStridedSlice_apply _ (GK m c) _ (ix2 r q) (ix2 r (Fin.castLE (by decide : 1000 ≤ 1024) q)) fun a => ?_
  match a with
  | ⟨0, _⟩ => show r.val = 0 + r.val; omega
  | ⟨1, _⟩ => show q.val = 0 + q.val; omega

/-- The kernel's run, read: the result at `outK`, every argument unchanged. -/
theorem run : θ_run defs (onTc (τ := τ) (main (F := Ideal))) ⟨m, fun _ => 0, ρ⟩ fun r => ∀ c : Dev nD,
      r.2.mem ((c.tc : Thread nD τ).loc main_v47) = outK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨((h c).2 main_v47 (Pipeline.mem_restRefs_of main_v47 (by decide) (by decide))).trans (result_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c))⟩)
    (run_main m ρ)

end Cert.Mlp.KValue

end
-- ==== Proof.Weights.lean ====
/-
  The arrays the kernel's region finds are the reference's own.

  Before the region the kernel's program dequantizes and transposes each weight matrix by the same operations the
  reference applies, followed by a change of float format, which is the identity on the extended reals; each bias is
  reshaped to one row. The fifth weight matrix and its scale are first padded by 24 rows, so the padded matrix agrees
  with the reference's on the first 1000 columns.
-/
import proofs.«426159_j81003083203269_3_alg».proof.Proof.Gen.KernelIdeal.Frame
import proofs.«426159_j81003083203269_3_alg».proof.Proof.RefRead
import proofs.«426159_j81003083203269_3_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost

noncomputable section

namespace Cert.Mlp.Weights

open Idealize.ShloMosaic Idealize.ShloMosaic.TcCoe Idealize.SL.Sem Idealize.ShloMosaic.ValueIdx Cert.Mlp
open Cert.KernelIdeal Cert.KernelIdeal.Gen

variable (m : (ℓ : Loc nD τ sig) → Buf (Elt Ideal) ℓ)

/-- The first matrix: the same operations on the same launch arrays as the reference's, then the change of float
    format, which changes no extended real. -/
theorem w1_eq (c : Dev nD) : (V m c main_v7 : FVec Ideal S1024x4096 .bf16)
    = Cert.ReferenceIdeal.ReadP.val_main_v6 (F := Ideal) (m ((c.tc : Thread nD τ).loc main_arg1)) (m ((c.tc : Thread nD τ).loc main_arg2)) := by
  dsimp only [V, V0]
  simp only [hostOps0, hostOps0_1, hostOps0_2, hostOps0_3, hostOps0_4, List.flatten_cons, List.flatten_nil, List.append_nil, List.cons_append,
    List.nil_append]
  after_results_simp <;> rfl

/-- The second matrix, likewise. -/
theorem w2_eq (c : Dev nD) : (V m c main_v15 : FVec Ideal S4096x1024 .bf16)
    = Cert.ReferenceIdeal.ReadP.val_main_v18 (F := Ideal) (m ((c.tc : Thread nD τ).loc main_arg4)) (m ((c.tc : Thread nD τ).loc main_arg5)) := by
  dsimp only [V, V0]
  simp only [hostOps0, hostOps0_1, hostOps0_2, hostOps0_3, hostOps0_4, List.flatten_cons, List.flatten_nil, List.append_nil, List.cons_append,
    List.nil_append]
  after_results_simp <;> rfl

/-- The third matrix, likewise. -/
theorem w3_eq (c : Dev nD) : (V m c main_v23 : FVec Ideal S1024x1024 .bf16)
    = Cert.ReferenceIdeal.ReadP.val_main_v30 (F := Ideal) (m ((c.tc : Thread nD τ).loc main_arg7)) (m ((c.tc : Thread nD τ).loc main_arg8)) := by
  dsimp only [V, V0]
  simp only [hostOps0, hostOps0_1, hostOps0_2, hostOps0_3, hostOps0_4, List.flatten_cons, List.flatten_nil, List.append_nil, List.cons_append,
    List.nil_append]
  after_results_simp <;> rfl

/-- The fourth matrix, likewise. -/
theorem w4_eq (c : Dev nD) : (V m c main_v31 : FVec Ideal S1024x512 .bf16)
    = Cert.ReferenceIdeal.ReadP.val_main_v42 (F := Ideal) (m ((c.tc : Thread nD τ).loc main_arg10)) (m ((c.tc : Thread nD τ).loc main_arg11)) := by
  dsimp only [V, V0]
  simp only [hostOps0, hostOps0_1, hostOps0_2, hostOps0_3, hostOps0_4, List.flatten_cons, List.flatten_nil, List.append_nil, List.cons_append,
    List.nil_append]
  after_results_simp <;> rfl

/-- The kernel's fifth weight matrix as a function of the two launch arrays: both padded by 24 rows, the integers
    made floats, the offset 128 subtracted, each row scaled, the result transposed. -/
def kW5 (x13 : (⟨S1000x512, .i32⟩ : BufTy).Contents (Elt Ideal)) (x14 : (⟨S1000, .f32⟩ : BufTy).Contents (Elt Ideal)) :
    FVec Ideal S512x1024 .bf16 :=
  truncf .bf16 (transpose S512x1024 [1, 0] (mulf (subf (sitofp .f32 (pad S1024x512 ![0, 0] ![24, 0] ![0, 0] x13 (constantI S_ 32 0#32) pads_S1000x512_S1024x512_0240_000 h_S_)) (broadcastInDim S1024x512 ![] bcast_S_S1024x512 (constant (F := Ideal) S_ .f32 0x43000000#32))) (broadcastInDim S1024x512 ![0, 1] bcast_S1024x1_S1024x512_0_1 (broadcastInDim S1024x1 ![0] bcast_S1024_S1024x1_0 (pad S1024 ![0] ![24] ![0] x14 (sitofp (F := Ideal) .f32 (constantI S_ 32 0#32)) pads_S1000_S1024_0240 h_S_)))) transposes_S1024x512_S512x1024_1_0) bitsLt_bf16_f32

/-- Entry (k, o) of it, for a column o < 1000: the integer entry (o, k) minus 128, times the scale of row o. The
    padding is never read. -/
theorem kW5_apply (x13 : (⟨S1000x512, .i32⟩ : BufTy).Contents (Elt Ideal)) (x14 : (⟨S1000, .f32⟩ : BufTy).Contents (Elt Ideal))
    (k : Fin 512) (o : Fin 1000) :
    kW5 x13 x14 (ix2 k (Fin.castLE (by decide : 1000 ≤ 1024) o))
      = (FloatOps.sitofp (F := Ideal) .f32 (x13 (ix2 o k)) - Ideal.ofBits .f32 0x43000000#32) * x14 (ix1 o) := by
  have hW : pad S1024x512 ![0, 0] ![24, 0] ![0, 0] x13 (constantI S_ 32 0#32) pads_S1000x512_S1024x512_0240_000 h_S_
      (ix2 (Fin.castLE (by decide : 1000 ≤ 1024) o) k) = x13 (ix2 o k) :=
    pad_apply_of_inside _ _ _ x13 _ pads_S1000x512_S1024x512_0240_000 h_S_ _ (ix2 o k) (fun a => match a with
      | ⟨0, _⟩ => by show o.val = 0 + o.val * (0 + 1); omega
      | ⟨1, _⟩ => by show k.val = 0 + k.val * (0 + 1); omega)
  have hS : pad S1024 ![0] ![24] ![0] x14 (sitofp (F := Ideal) .f32 (constantI S_ 32 0#32)) pads_S1000_S1024_0240 h_S_
      (ix1 (Fin.castLE (by decide : 1000 ≤ 1024) o)) = x14 (ix1 o) :=
    pad_apply_of_inside _ _ _ x14 _ pads_S1000_S1024_0240 h_S_ _ (ix1 o) (fun a => match a with
      | ⟨0, _⟩ => by show o.val = 0 + o.val * (0 + 1); omega)
  have hB0 : broadcastInDim S1024x512 ![] bcast_S_S1024x512 (constant (F := Ideal) S_ .f32 0x43000000#32)
      (ix2 (Fin.castLE (by decide : 1000 ≤ 1024) o) k) = Ideal.ofBits .f32 0x43000000#32 :=
    broadcastInDim_apply _ bcast_S_S1024x512 _ _ (fun a => a.elim0) (fun a => a.elim0)
  have hB1 : ∀ y : FVec Ideal S1024 .f32, broadcastInDim S1024x512 ![0, 1] bcast_S1024x1_S1024x512_0_1 (broadcastInDim S1024x1 ![0] bcast_S1024_S1024x1_0 y)
      (ix2 (Fin.castLE (by decide : 1000 ≤ 1024) o) k) = y (ix1 (Fin.castLE (by decide : 1000 ≤ 1024) o)) := fun y =>
    (broadcastInDim_apply _ bcast_S1024x1_S1024x512_0_1 _ _ (ix2 (Fin.castLE (by decide : 1000 ≤ 1024) o) (0 : Fin 1)) (fun a => match a with
      | ⟨0, _⟩ => by show o.val = if (1024 : Nat) = 1 then 0 else o.val; rw [if_neg (by decide)]
      | ⟨1, _⟩ => by show 0 = if (1 : Nat) = 1 then 0 else k.val; rw [if_pos rfl])).trans
    (broadcastInDim_apply _ bcast_S1024_S1024x1_0 y _ (ix1 (Fin.castLE (by decide : 1000 ≤ 1024) o)) (fun a => match a with
      | ⟨0, _⟩ => by show o.val = if (1024 : Nat) = 1 then 0 else o.val; rw [if_neg (by decide)]))
  unfold kW5
  refine (truncf_apply _ bitsLt_bf16_f32 _).trans ?_
  refine (transpose_ix2_apply _ transposes_S1024x512_S512x1024_1_0 k (Fin.castLE (by decide : 1000 ≤ 1024) o)).trans ?_
  show (FloatOps.sitofp (F := Ideal) .f32 (pad S1024x512 ![0, 0] ![24, 0] ![0, 0] x13 (constantI S_ 32 0#32) pads_S1000x512_S1024x512_0240_000 h_S_ (ix2 (Fin.castLE (by decide : 1000 ≤ 1024) o) k))
      - broadcastInDim S1024x512 ![] bcast_S_S1024x512 (constant (F := Ideal) S_ .f32 0x43000000#32) (ix2 (Fin.castLE (by decide : 1000 ≤ 1024) o) k))
      * broadcastInDim S1024x512 ![0, 1] bcast_S1024x1_S1024x512_0_1 (broadcastInDim S1024x1 ![0] bcast_S1024_S1024x1_0 (pad S1024 ![0] ![24] ![0] x14 (sitofp (F := Ideal) .f32 (constantI S_ 32 0#32)) pads_S1000_S1024_0240 h_S_)) (ix2 (Fin.castLE (by decide : 1000 ≤ 1024) o) k) = _
  rw [hW, hB0, hB1, hS]

/-- The reference's fifth matrix at (k, o): the integer entry (o, k) minus 128, times the scale of row o. -/
theorem ref5_apply (x13 : (⟨S1000x512, .i32⟩ : BufTy).Contents (Elt Ideal)) (x14 : (⟨S1000, .f32⟩ : BufTy).Contents (Elt Ideal))
    (k : Fin 512) (o : Fin 1000) :
    Cert.ReferenceIdeal.ReadP.val_main_v54 (F := Ideal) x13 x14 (ix2 k o)
      = (FloatOps.sitofp (F := Ideal) .f32 (x13 (ix2 o k)) - Ideal.ofBits .f32 0x43000000#32) * x14 (ix1 o) := by
  have h54 : Cert.ReferenceIdeal.ReadP.idx_main_v54 (ix2 k o) = ix2 o k :=
    funext fun a => match a with | ⟨0, _⟩ => rfl | ⟨1, _⟩ => rfl
  have h52 : Cert.ReferenceIdeal.ReadP.idx_main_v52 (ix2 o k) = ix2 o (0 : Fin 1) :=
    funext fun a => match a with | ⟨0, _⟩ => rfl | ⟨1, _⟩ => rfl
  have h51 : Cert.ReferenceIdeal.ReadP.idx_main_v51 (ix2 o (0 : Fin 1)) = ix1 o :=
    funext fun a => match a with | ⟨0, _⟩ => rfl
  rw [Cert.ReferenceIdeal.ReadP.val_main_v54_apply, h54, Cert.ReferenceIdeal.ReadP.val_main_v53_apply,
    Cert.ReferenceIdeal.ReadP.val_main_v50_apply, Cert.ReferenceIdeal.ReadP.val_main_v48_apply,
    Cert.ReferenceIdeal.ReadP.val_main_v49_apply, Cert.ReferenceIdeal.ReadP.val_main_cst_3_apply,
    Cert.ReferenceIdeal.ReadP.val_main_v52_apply, h52, Cert.ReferenceIdeal.ReadP.val_main_v51_apply, h51]
  rfl

/-- The padded fifth matrix on its first 1000 columns. -/
theorem w5_eq (c : Dev nD) (k : Fin 512) (o : Fin 1000) :
    (V m c main_v41 : FVec Ideal S512x1024 .bf16) (ix2 k (Fin.castLE (by decide : 1000 ≤ 1024) o))
      = Cert.ReferenceIdeal.ReadP.val_main_v54 (F := Ideal) (m ((c.tc : Thread nD τ).loc main_arg13)) (m ((c.tc : Thread nD τ).loc main_arg14)) (ix2 k o) := by
  have e : (V m c main_v41 : FVec Ideal S512x1024 .bf16)
      = kW5 (m ((c.tc : Thread nD τ).loc main_arg13)) (m ((c.tc : Thread nD τ).loc main_arg14)) := by
    dsimp only [V, V0]
    simp only [hostOps0, hostOps0_1, hostOps0_2, hostOps0_3, hostOps0_4, List.flatten_cons, List.flatten_nil, List.append_nil, List.cons_append,
      List.nil_append]
    after_results_simp <;> rfl
  rw [e, kW5_apply, ref5_apply]

/-- The first bias: the launch vector reshaped to one row, read back along that row. -/
theorem b1_eq (c : Dev nD) : rowOf (V m c main_v42 : FVec Ideal S1x4096 .f32) (0 : Fin 1) = vec (m ((c.tc : Thread nD τ).loc main_arg3)) := by
  have e : (V m c main_v42 : FVec Ideal S1x4096 .f32)
      = shapeCast S1x4096 (m ((c.tc : Thread nD τ).loc main_arg3)) shapeCasts_S4096_S1x4096 := by
    dsimp only [V, V0]
    simp only [hostOps0, hostOps0_1, hostOps0_2, hostOps0_3, hostOps0_4, List.flatten_cons, List.flatten_nil, List.append_nil, List.cons_append,
      List.nil_append]
    after_results_simp <;> rfl
  funext o
  show (V m c main_v42 : FVec Ideal S1x4096 .f32) (ix2 0 o) = _
  rw [e]
  exact shapeCast_a_1a_apply _ _ 0 o

/-- The second bias, likewise. -/
theorem b2_eq (c : Dev nD) : rowOf (V m c main_v43 : FVec Ideal S1x1024 .f32) (0 : Fin 1) = vec (m ((c.tc : Thread nD τ).loc main_arg6)) := by
  have e : (V m c main_v43 : FVec Ideal S1x1024 .f32)
      = shapeCast S1x1024 (m ((c.tc : Thread nD τ).loc main_arg6)) shapeCasts_S1024_S1x1024 := by
    dsimp only [V, V0]
    simp only [hostOps0, hostOps0_1, hostOps0_2, hostOps0_3, hostOps0_4, List.flatten_cons, List.flatten_nil, List.append_nil, List.cons_append,
      List.nil_append]
    after_results_simp <;> rfl
  funext o
  show (V m c main_v43 : FVec Ideal S1x1024 .f32) (ix2 0 o) = _
  rw [e]
  exact shapeCast_a_1a_apply _ _ 0 o

/-- The third bias, likewise. -/
theorem b3_eq (c : Dev nD) : rowOf (V m c main_v44 : FVec Ideal S1x1024 .f32) (0 : Fin 1) = vec (m ((c.tc : Thread nD τ).loc main_arg9)) := by
  have e : (V m c main_v44 : FVec Ideal S1x1024 .f32)
      = shapeCast S1x1024 (m ((c.tc : Thread nD τ).loc main_arg9)) shapeCasts_S1024_S1x1024 := by
    dsimp only [V, V0]
    simp only [hostOps0, hostOps0_1, hostOps0_2, hostOps0_3, hostOps0_4, List.flatten_cons, List.flatten_nil, List.append_nil, List.cons_append,
      List.nil_append]
    after_results_simp <;> rfl
  funext o
  show (V m c main_v44 : FVec Ideal S1x1024 .f32) (ix2 0 o) = _
  rw [e]
  exact shapeCast_a_1a_apply _ _ 0 o

/-- The fourth bias, likewise. -/
theorem b4_eq (c : Dev nD) : rowOf (V m c main_v45 : FVec Ideal S1x512 .f32) (0 : Fin 1) = vec (m ((c.tc : Thread nD τ).loc main_arg12)) := by
  have e : (V m c main_v45 : FVec Ideal S1x512 .f32)
      = shapeCast S1x512 (m ((c.tc : Thread nD τ).loc main_arg12)) shapeCasts_S512_S1x512 := by
    dsimp only [V, V0]
    simp only [hostOps0, hostOps0_1, hostOps0_2, hostOps0_3, hostOps0_4, List.flatten_cons, List.flatten_nil, List.append_nil, List.cons_append,
      List.nil_append]
    after_results_simp <;> rfl
  funext o
  show (V m c main_v45 : FVec Ideal S1x512 .f32) (ix2 0 o) = _
  rw [e]
  exact shapeCast_a_1a_apply _ _ 0 o

end Cert.Mlp.Weights

end
-- ==== Proof.RefValue.lean ====
/-
  The reference computes the network of the specification.

  Its dequantized, transposed weight matrices are kept as the whole arrays its own operations build; each hidden layer
  is a dot_general with the row's entries, the bias broadcast down the rows and a maximum with zero; the log-softmax
  takes the row maximum from `-∞` (twice: the reduce's initial value and a further maximum with `-∞`), shifts, sums
  the exponentials from zero, and subtracts the logarithm.
-/
import proofs.«426159_j81003083203269_3_alg».proof.Proof.RefRead
import proofs.«426159_j81003083203269_3_alg».proof.Proof.Spec
import Idealize.ShloMosaic.PureOps.Ideal.Laws
import Idealize.ShloMosaic.PureOps.Reduce
import Idealize.ShloMosaic.Lib.ValueIdx
import Idealize.ShloMosaic.Lib.Pipeline.Value

noncomputable section

namespace Cert.Mlp.Ref

open Idealize.ShloMosaic Idealize.ShloMosaic.ValueIdx Cert.ReferenceIdeal Cert.ReferenceIdeal.ReadP Cert.Mlp

/-- The hidden layers' parameters as the reference builds them. -/
def θR (x1 : (⟨S4096x1024, .i32⟩ : BufTy).Contents (Elt Ideal)) (x2 x3 : (⟨S4096, .f32⟩ : BufTy).Contents (Elt Ideal)) (x4 : (⟨S1024x4096, .i32⟩ : BufTy).Contents (Elt Ideal)) (x5 x6 : (⟨S1024, .f32⟩ : BufTy).Contents (Elt Ideal)) (x7 : (⟨S1024x1024, .i32⟩ : BufTy).Contents (Elt Ideal)) (x8 x9 : (⟨S1024, .f32⟩ : BufTy).Contents (Elt Ideal)) (x10 : (⟨S512x1024, .i32⟩ : BufTy).Contents (Elt Ideal)) (x11 x12 : (⟨S512, .f32⟩ : BufTy).Contents (Elt Ideal)) : Hidden :=
  ⟨val_main_v6 (F := Ideal) x1 x2, vec x3, val_main_v18 (F := Ideal) x4 x5, vec x6, val_main_v30 (F := Ideal) x7 x8, vec x9,
    val_main_v42 (F := Ideal) x10 x11, vec x12⟩

/-- The first hidden layer at (r, o): the row's product with the weight column, plus the bias entry, clamped at zero. -/
theorem layer1_at (x0 : (⟨S16384x1024, .f32⟩ : BufTy).Contents (Elt Ideal)) (x1 : (⟨S4096x1024, .i32⟩ : BufTy).Contents (Elt Ideal)) (x2 : (⟨S4096, .f32⟩ : BufTy).Contents (Elt Ideal)) (x3 : (⟨S4096, .f32⟩ : BufTy).Contents (Elt Ideal)) (r : Fin 16384) (o : Fin 4096) :
    val_main_v11 (F := Ideal) x0 x1 x2 x3 (ix2 r o)
      = max ((∑ k : Fin 1024, (x0) (ix2 r k) * (val_main_v6 (F := Ideal) x1 x2) (ix2 k o)) + x3 (ix1 o)) 0 := by
  have hl : ∀ k : Fin 1024, lidx_main_v7 (ix2 r o) k = ix2 r k := fun k => funext fun a => by
    match a with | ⟨0, _⟩ => rfl | ⟨1, _⟩ => rfl
  have hr : ∀ k : Fin 1024, ridx_main_v7 (ix2 r o) k = ix2 k o := fun k => funext fun a => by
    match a with | ⟨0, _⟩ => rfl | ⟨1, _⟩ => rfl
  have hb : idx_main_v8 (idx_main_v9 (ix2 r o)) = ix1 o := funext fun a => by
    match a with | ⟨0, _⟩ => rfl
  rw [val_main_v11_apply, val_main_v10_apply, val_main_v7_apply, val_main_v9_apply, val_main_v8_apply,
    val_main_call0_v0_apply, val_main_call0_cst_apply, hb]
  simp only [Ideal.addf_def, Ideal.maximumf_def, Ideal.ofBits_def, Ideal.ofBits_zero_f32]
  refine congrArg (fun s => max (s + x3 (ix1 o)) 0) (Finset.sum_congr rfl fun k _ => ?_)
  rw [hl k, hr k]

/-- The first hidden layer on row r is the dense layer of the specification on the row it is given. -/
theorem layer1_row (x0 : (⟨S16384x1024, .f32⟩ : BufTy).Contents (Elt Ideal)) (x1 : (⟨S4096x1024, .i32⟩ : BufTy).Contents (Elt Ideal)) (x2 : (⟨S4096, .f32⟩ : BufTy).Contents (Elt Ideal)) (x3 : (⟨S4096, .f32⟩ : BufTy).Contents (Elt Ideal)) (r : Fin 16384) :
    rowOf (val_main_v11 (F := Ideal) x0 x1 x2 x3) r = dense (rowOf (x0) r) (val_main_v6 (F := Ideal) x1 x2) (vec x3) :=
  funext fun o => layer1_at x0 x1 x2 x3 r o

/-- The second hidden layer at (r, o): the row's product with the weight column, plus the bias entry, clamped at zero. -/
theorem layer2_at (x0 : (⟨S16384x1024, .f32⟩ : BufTy).Contents (Elt Ideal)) (x1 : (⟨S4096x1024, .i32⟩ : BufTy).Contents (Elt Ideal)) (x2 : (⟨S4096, .f32⟩ : BufTy).Contents (Elt Ideal)) (x3 : (⟨S4096, .f32⟩ : BufTy).Contents (Elt Ideal)) (x4 : (⟨S1024x4096, .i32⟩ : BufTy).Contents (Elt Ideal)) (x5 : (⟨S1024, .f32⟩ : BufTy).Contents (Elt Ideal)) (x6 : (⟨S1024, .f32⟩ : BufTy).Contents (Elt Ideal)) (r : Fin 16384) (o : Fin 1024) :
    val_main_v23 (F := Ideal) x0 x1 x2 x3 x4 x5 x6 (ix2 r o)
      = max ((∑ k : Fin 4096, (val_main_v11 (F := Ideal) x0 x1 x2 x3) (ix2 r k) * (val_main_v18 (F := Ideal) x4 x5) (ix2 k o)) + x6 (ix1 o)) 0 := by
  have hl : ∀ k : Fin 4096, lidx_main_v19 (ix2 r o) k = ix2 r k := fun k => funext fun a => by
    match a with | ⟨0, _⟩ => rfl | ⟨1, _⟩ => rfl
  have hr : ∀ k : Fin 4096, ridx_main_v19 (ix2 r o) k = ix2 k o := fun k => funext fun a => by
    match a with | ⟨0, _⟩ => rfl | ⟨1, _⟩ => rfl
  have hb : idx_main_v20 (idx_main_v21 (ix2 r o)) = ix1 o := funext fun a => by
    match a with | ⟨0, _⟩ => rfl
  rw [val_main_v23_apply, val_main_v22_apply, val_main_v19_apply, val_main_v21_apply, val_main_v20_apply,
    val_main_call1_v0_apply, val_main_call1_cst_apply, hb]
  simp only [Ideal.addf_def, Ideal.maximumf_def, Ideal.ofBits_def, Ideal.ofBits_zero_f32]
  refine congrArg (fun s => max (s + x6 (ix1 o)) 0) (Finset.sum_congr rfl fun k _ => ?_)
  rw [hl k, hr k]

/-- The second hidden layer on row r is the dense layer of the specification on the row it is given. -/
theorem layer2_row (x0 : (⟨S16384x1024, .f32⟩ : BufTy).Contents (Elt Ideal)) (x1 : (⟨S4096x1024, .i32⟩ : BufTy).Contents (Elt Ideal)) (x2 : (⟨S4096, .f32⟩ : BufTy).Contents (Elt Ideal)) (x3 : (⟨S4096, .f32⟩ : BufTy).Contents (Elt Ideal)) (x4 : (⟨S1024x4096, .i32⟩ : BufTy).Contents (Elt Ideal)) (x5 : (⟨S1024, .f32⟩ : BufTy).Contents (Elt Ideal)) (x6 : (⟨S1024, .f32⟩ : BufTy).Contents (Elt Ideal)) (r : Fin 16384) :
    rowOf (val_main_v23 (F := Ideal) x0 x1 x2 x3 x4 x5 x6) r = dense (rowOf (val_main_v11 (F := Ideal) x0 x1 x2 x3) r) (val_main_v18 (F := Ideal) x4 x5) (vec x6) :=
  funext fun o => layer2_at x0 x1 x2 x3 x4 x5 x6 r o

/-- The third hidden layer at (r, o): the row's product with the weight column, plus the bias entry, clamped at zero. -/
theorem layer3_at (x0 : (⟨S16384x1024, .f32⟩ : BufTy).Contents (Elt Ideal)) (x1 : (⟨S4096x1024, .i32⟩ : BufTy).Contents (Elt Ideal)) (x2 : (⟨S4096, .f32⟩ : BufTy).Contents (Elt Ideal)) (x3 : (⟨S4096, .f32⟩ : BufTy).Contents (Elt Ideal)) (x4 : (⟨S1024x4096, .i32⟩ : BufTy).Contents (Elt Ideal)) (x5 : (⟨S1024, .f32⟩ : BufTy).Contents (Elt Ideal)) (x6 : (⟨S1024, .f32⟩ : BufTy).Contents (Elt Ideal)) (x7 : (⟨S1024x1024, .i32⟩ : BufTy).Contents (Elt Ideal)) (x8 : (⟨S1024, .f32⟩ : BufTy).Contents (Elt Ideal)) (x9 : (⟨S1024, .f32⟩ : BufTy).Contents (Elt Ideal)) (r : Fin 16384) (o : Fin 1024) :
    val_main_v35 (F := Ideal) x0 x1 x2 x3 x4 x5 x6 x7 x8 x9 (ix2 r o)
      = max ((∑ k : Fin 1024, (val_main_v23 (F := Ideal) x0 x1 x2 x3 x4 x5 x6) (ix2 r k) * (val_main_v30 (F := Ideal) x7 x8) (ix2 k o)) + x9 (ix1 o)) 0 := by
  have hl : ∀ k : Fin 1024, lidx_main_v31 (ix2 r o) k = ix2 r k := fun k => funext fun a => by
    match a with | ⟨0, _⟩ => rfl | ⟨1, _⟩ => rfl
  have hr : ∀ k : Fin 1024, ridx_main_v31 (ix2 r o) k = ix2 k o := fun k => funext fun a => by
    match a with | ⟨0, _⟩ => rfl | ⟨1, _⟩ => rfl
  have hb : idx_main_v32 (idx_main_v33 (ix2 r o)) = ix1 o := funext fun a => by
    match a with | ⟨0, _⟩ => rfl
  rw [val_main_v35_apply, val_main_v34_apply, val_main_v31_apply, val_main_v33_apply, val_main_v32_apply,
    val_main_call2_v0_apply, val_main_call2_cst_apply, hb]
  simp only [Ideal.addf_def, Ideal.maximumf_def, Ideal.ofBits_def, Ideal.ofBits_zero_f32]
  refine congrArg (fun s => max (s + x9 (ix1 o)) 0) (Finset.sum_congr rfl fun k _ => ?_)
  rw [hl k, hr k]

/-- The third hidden layer on row r is the dense layer of the specification on the row it is given. -/
theorem layer3_row (x0 : (⟨S16384x1024, .f32⟩ : BufTy).Contents (Elt Ideal)) (x1 : (⟨S4096x1024, .i32⟩ : BufTy).Contents (Elt Ideal)) (x2 : (⟨S4096, .f32⟩ : BufTy).Contents (Elt Ideal)) (x3 : (⟨S4096, .f32⟩ : BufTy).Contents (Elt Ideal)) (x4 : (⟨S1024x4096, .i32⟩ : BufTy).Contents (Elt Ideal)) (x5 : (⟨S1024, .f32⟩ : BufTy).Contents (Elt Ideal)) (x6 : (⟨S1024, .f32⟩ : BufTy).Contents (Elt Ideal)) (x7 : (⟨S1024x1024, .i32⟩ : BufTy).Contents (Elt Ideal)) (x8 : (⟨S1024, .f32⟩ : BufTy).Contents (Elt Ideal)) (x9 : (⟨S1024, .f32⟩ : BufTy).Contents (Elt Ideal)) (r : Fin 16384) :
    rowOf (val_main_v35 (F := Ideal) x0 x1 x2 x3 x4 x5 x6 x7 x8 x9) r = dense (rowOf (val_main_v23 (F := Ideal) x0 x1 x2 x3 x4 x5 x6) r) (val_main_v30 (F := Ideal) x7 x8) (vec x9) :=
  funext fun o => layer3_at x0 x1 x2 x3 x4 x5 x6 x7 x8 x9 r o

/-- The fourth hidden layer at (r, o): the row's product with the weight column, plus the bias entry, clamped at zero. -/
theorem layer4_at (x0 : (⟨S16384x1024, .f32⟩ : BufTy).Contents (Elt Ideal)) (x1 : (⟨S4096x1024, .i32⟩ : BufTy).Contents (Elt Ideal)) (x2 : (⟨S4096, .f32⟩ : BufTy).Contents (Elt Ideal)) (x3 : (⟨S4096, .f32⟩ : BufTy).Contents (Elt Ideal)) (x4 : (⟨S1024x4096, .i32⟩ : BufTy).Contents (Elt Ideal)) (x5 : (⟨S1024, .f32⟩ : BufTy).Contents (Elt Ideal)) (x6 : (⟨S1024, .f32⟩ : BufTy).Contents (Elt Ideal)) (x7 : (⟨S1024x1024, .i32⟩ : BufTy).Contents (Elt Ideal)) (x8 : (⟨S1024, .f32⟩ : BufTy).Contents (Elt Ideal)) (x9 : (⟨S1024, .f32⟩ : BufTy).Contents (Elt Ideal)) (x10 : (⟨S512x1024, .i32⟩ : BufTy).Contents (Elt Ideal)) (x11 : (⟨S512, .f32⟩ : BufTy).Contents (Elt Ideal)) (x12 : (⟨S512, .f32⟩ : BufTy).Contents (Elt Ideal)) (r : Fin 16384) (o : Fin 512) :
    val_main_v47 (F := Ideal) x0 x1 x2 x3 x4 x5 x6 x7 x8 x9 x10 x11 x12 (ix2 r o)
      = max ((∑ k : Fin 1024, (val_main_v35 (F := Ideal) x0 x1 x2 x3 x4 x5 x6 x7 x8 x9) (ix2 r k) * (val_main_v42 (F := Ideal) x10 x11) (ix2 k o)) + x12 (ix1 o)) 0 := by
  have hl : ∀ k : Fin 1024, lidx_main_v43 (ix2 r o) k = ix2 r k := fun k => funext fun a => by
    match a with | ⟨0, _⟩ => rfl | ⟨1, _⟩ => rfl
  have hr : ∀ k : Fin 1024, ridx_main_v43 (ix2 r o) k = ix2 k o := fun k => funext fun a => by
    match a with | ⟨0, _⟩ => rfl | ⟨1, _⟩ => rfl
  have hb : idx_main_v44 (idx_main_v45 (ix2 r o)) = ix1 o := funext fun a => by
    match a with | ⟨0, _⟩ => rfl
  rw [val_main_v47_apply, val_main_v46_apply, val_main_v43_apply, val_main_v45_apply, val_main_v44_apply,
    val_main_call3_v0_apply, val_main_call3_cst_apply, hb]
  simp only [Ideal.addf_def, Ideal.maximumf_def, Ideal.ofBits_def, Ideal.ofBits_zero_f32]
  refine congrArg (fun s => max (s + x12 (ix1 o)) 0) (Finset.sum_congr rfl fun k _ => ?_)
  rw [hl k, hr k]

/-- The fourth hidden layer on row r is the dense layer of the specification on the row it is given. -/
theorem layer4_row (x0 : (⟨S16384x1024, .f32⟩ : BufTy).Contents (Elt Ideal)) (x1 : (⟨S4096x1024, .i32⟩ : BufTy).Contents (Elt Ideal)) (x2 : (⟨S4096, .f32⟩ : BufTy).Contents (Elt Ideal)) (x3 : (⟨S4096, .f32⟩ : BufTy).Contents (Elt Ideal)) (x4 : (⟨S1024x4096, .i32⟩ : BufTy).Contents (Elt Ideal)) (x5 : (⟨S1024, .f32⟩ : BufTy).Contents (Elt Ideal)) (x6 : (⟨S1024, .f32⟩ : BufTy).Contents (Elt Ideal)) (x7 : (⟨S1024x1024, .i32⟩ : BufTy).Contents (Elt Ideal)) (x8 : (⟨S1024, .f32⟩ : BufTy).Contents (Elt Ideal)) (x9 : (⟨S1024, .f32⟩ : BufTy).Contents (Elt Ideal)) (x10 : (⟨S512x1024, .i32⟩ : BufTy).Contents (Elt Ideal)) (x11 : (⟨S512, .f32⟩ : BufTy).Contents (Elt Ideal)) (x12 : (⟨S512, .f32⟩ : BufTy).Contents (Elt Ideal)) (r : Fin 16384) :
    rowOf (val_main_v47 (F := Ideal) x0 x1 x2 x3 x4 x5 x6 x7 x8 x9 x10 x11 x12) r = dense (rowOf (val_main_v35 (F := Ideal) x0 x1 x2 x3 x4 x5 x6 x7 x8 x9) r) (val_main_v42 (F := Ideal) x10 x11) (vec x12) :=
  funext fun o => layer4_at x0 x1 x2 x3 x4 x5 x6 x7 x8 x9 x10 x11 x12 r o

/-- The logits at (r, q): the fourth layer's row times the last weight column. -/
theorem logits_at (x0 : (⟨S16384x1024, .f32⟩ : BufTy).Contents (Elt Ideal)) (x1 : (⟨S4096x1024, .i32⟩ : BufTy).Contents (Elt Ideal)) (x2 : (⟨S4096, .f32⟩ : BufTy).Contents (Elt Ideal)) (x3 : (⟨S4096, .f32⟩ : BufTy).Contents (Elt Ideal)) (x4 : (⟨S1024x4096, .i32⟩ : BufTy).Contents (Elt Ideal)) (x5 : (⟨S1024, .f32⟩ : BufTy).Contents (Elt Ideal)) (x6 : (⟨S1024, .f32⟩ : BufTy).Contents (Elt Ideal)) (x7 : (⟨S1024x1024, .i32⟩ : BufTy).Contents (Elt Ideal)) (x8 : (⟨S1024, .f32⟩ : BufTy).Contents (Elt Ideal)) (x9 : (⟨S1024, .f32⟩ : BufTy).Contents (Elt Ideal)) (x10 : (⟨S512x1024, .i32⟩ : BufTy).Contents (Elt Ideal)) (x11 : (⟨S512, .f32⟩ : BufTy).Contents (Elt Ideal)) (x12 : (⟨S512, .f32⟩ : BufTy).Contents (Elt Ideal)) (x13 : (⟨S1000x512, .i32⟩ : BufTy).Contents (Elt Ideal)) (x14 : (⟨S1000, .f32⟩ : BufTy).Contents (Elt Ideal)) (r : Fin 16384) (q : Fin 1000) :
    val_main_v55 (F := Ideal) x0 x1 x2 x3 x4 x5 x6 x7 x8 x9 x10 x11 x12 x13 x14 (ix2 r q)
      = ∑ k : Fin 512, (val_main_v47 (F := Ideal) x0 x1 x2 x3 x4 x5 x6 x7 x8 x9 x10 x11 x12) (ix2 r k) * (val_main_v54 (F := Ideal) x13 x14) (ix2 k q) := by
  have hl : ∀ k : Fin 512, lidx_main_v55 (ix2 r q) k = ix2 r k := fun k => funext fun a => by
    match a with | ⟨0, _⟩ => rfl | ⟨1, _⟩ => rfl
  have hr : ∀ k : Fin 512, ridx_main_v55 (ix2 r q) k = ix2 k q := fun k => funext fun a => by
    match a with | ⟨0, _⟩ => rfl | ⟨1, _⟩ => rfl
  rw [val_main_v55_apply]
  refine Finset.sum_congr rfl fun k _ => ?_
  rw [hl k, hr k]

/-- The logits of row r are the fourth layer's row times the last weight matrix. -/
theorem logits_row (x0 : (⟨S16384x1024, .f32⟩ : BufTy).Contents (Elt Ideal)) (x1 : (⟨S4096x1024, .i32⟩ : BufTy).Contents (Elt Ideal)) (x2 : (⟨S4096, .f32⟩ : BufTy).Contents (Elt Ideal)) (x3 : (⟨S4096, .f32⟩ : BufTy).Contents (Elt Ideal)) (x4 : (⟨S1024x4096, .i32⟩ : BufTy).Contents (Elt Ideal)) (x5 : (⟨S1024, .f32⟩ : BufTy).Contents (Elt Ideal)) (x6 : (⟨S1024, .f32⟩ : BufTy).Contents (Elt Ideal)) (x7 : (⟨S1024x1024, .i32⟩ : BufTy).Contents (Elt Ideal)) (x8 : (⟨S1024, .f32⟩ : BufTy).Contents (Elt Ideal)) (x9 : (⟨S1024, .f32⟩ : BufTy).Contents (Elt Ideal)) (x10 : (⟨S512x1024, .i32⟩ : BufTy).Contents (Elt Ideal)) (x11 : (⟨S512, .f32⟩ : BufTy).Contents (Elt Ideal)) (x12 : (⟨S512, .f32⟩ : BufTy).Contents (Elt Ideal)) (x13 : (⟨S1000x512, .i32⟩ : BufTy).Contents (Elt Ideal)) (x14 : (⟨S1000, .f32⟩ : BufTy).Contents (Elt Ideal)) (r : Fin 16384) :
    rowOf (val_main_v55 (F := Ideal) x0 x1 x2 x3 x4 x5 x6 x7 x8 x9 x10 x11 x12 x13 x14) r
      = lin (rowOf (val_main_v47 (F := Ideal) x0 x1 x2 x3 x4 x5 x6 x7 x8 x9 x10 x11 x12) r) (val_main_v54 (F := Ideal) x13 x14) :=
  funext fun q => logits_at x0 x1 x2 x3 x4 x5 x6 x7 x8 x9 x10 x11 x12 x13 x14 r q

/-- The reduced index r with class k put back is (r, k). -/
theorem lift_row (h : S16384x1000.Reduces [1] S16384) (r : Fin 16384) (k : Fin (S16384x1000.size 1)) :
    h.lift (ix1 r) k = ix2 r (⟨k.val, k.isLt⟩ : Fin 1000) := by
  funext c; apply Fin.ext
  fin_cases c <;> rfl

/-- The reference's "-∞" is the bottom of the extended reals. -/
theorem negInf_eq : (FloatOps.ofBits (F := Ideal) .f32 0xFF800000#32) = (⊥ : EReal) := by
  simp [Ideal.ofBits, Ideal.ieee]

/-- From -∞, the reduce with a maximum body along the classes, at row r, is the largest entry of that row. -/
theorem reduceMax_row (z : (⟨S16384x1000, .f32⟩ : BufTy).Contents (Elt Ideal)) (r : Fin 16384) :
    Host.reduce (FloatOps.maximumf (F := Ideal) (φ := .f32)) z (val_main_call4_cst (F := Ideal)) Gen.reducesTo_S16384x1000_S16384_d1 Gen.h_S_ (ix1 r)
      = rowMax (rowOf z r) := by
  have h : S16384x1000.Reduces [1] S16384 := by decide
  rw [Host.reduce_eq_fold_single (FloatOps.maximumf (F := Ideal) (φ := .f32)) z _ Gen.reducesTo_S16384x1000_S16384_d1 h Gen.h_S_,
    val_main_call4_cst_apply, negInf_eq]
  have hf : (z ∘ h.lift (ix1 r)) = fun k : Fin 1000 => z (ix2 r k) := funext fun k => congrArg z (lift_row h r k)
  exact congrArg (fun f => Finset.fold max (⊥ : EReal) f (Finset.univ : Finset (Fin 1000))) hf

/-- The row maximum the log-softmax uses (a further maximum with -∞ changes nothing). -/
theorem rowMax_at (x0 : (⟨S16384x1024, .f32⟩ : BufTy).Contents (Elt Ideal)) (x1 : (⟨S4096x1024, .i32⟩ : BufTy).Contents (Elt Ideal)) (x2 : (⟨S4096, .f32⟩ : BufTy).Contents (Elt Ideal)) (x3 : (⟨S4096, .f32⟩ : BufTy).Contents (Elt Ideal)) (x4 : (⟨S1024x4096, .i32⟩ : BufTy).Contents (Elt Ideal)) (x5 : (⟨S1024, .f32⟩ : BufTy).Contents (Elt Ideal)) (x6 : (⟨S1024, .f32⟩ : BufTy).Contents (Elt Ideal)) (x7 : (⟨S1024x1024, .i32⟩ : BufTy).Contents (Elt Ideal)) (x8 : (⟨S1024, .f32⟩ : BufTy).Contents (Elt Ideal)) (x9 : (⟨S1024, .f32⟩ : BufTy).Contents (Elt Ideal)) (x10 : (⟨S512x1024, .i32⟩ : BufTy).Contents (Elt Ideal)) (x11 : (⟨S512, .f32⟩ : BufTy).Contents (Elt Ideal)) (x12 : (⟨S512, .f32⟩ : BufTy).Contents (Elt Ideal)) (x13 : (⟨S1000x512, .i32⟩ : BufTy).Contents (Elt Ideal)) (x14 : (⟨S1000, .f32⟩ : BufTy).Contents (Elt Ideal)) (r : Fin 16384) :
    val_main_call4_v2 (F := Ideal) x0 x1 x2 x3 x4 x5 x6 x7 x8 x9 x10 x11 x12 x13 x14 (ix1 r) = rowMax (rowOf (val_main_v55 (F := Ideal) x0 x1 x2 x3 x4 x5 x6 x7 x8 x9 x10 x11 x12 x13 x14) r) := by
  rw [val_main_call4_v2_apply, val_main_call4_v1_apply, val_main_call4_cst_0_apply, negInf_eq]
  unfold val_main_call4_v0
  rw [reduceMax_row]
  simp only [Ideal.maximumf_def]
  exact max_eq_right bot_le

/-- The shifted logits at (r, q). -/
theorem shifted_at (x0 : (⟨S16384x1024, .f32⟩ : BufTy).Contents (Elt Ideal)) (x1 : (⟨S4096x1024, .i32⟩ : BufTy).Contents (Elt Ideal)) (x2 : (⟨S4096, .f32⟩ : BufTy).Contents (Elt Ideal)) (x3 : (⟨S4096, .f32⟩ : BufTy).Contents (Elt Ideal)) (x4 : (⟨S1024x4096, .i32⟩ : BufTy).Contents (Elt Ideal)) (x5 : (⟨S1024, .f32⟩ : BufTy).Contents (Elt Ideal)) (x6 : (⟨S1024, .f32⟩ : BufTy).Contents (Elt Ideal)) (x7 : (⟨S1024x1024, .i32⟩ : BufTy).Contents (Elt Ideal)) (x8 : (⟨S1024, .f32⟩ : BufTy).Contents (Elt Ideal)) (x9 : (⟨S1024, .f32⟩ : BufTy).Contents (Elt Ideal)) (x10 : (⟨S512x1024, .i32⟩ : BufTy).Contents (Elt Ideal)) (x11 : (⟨S512, .f32⟩ : BufTy).Contents (Elt Ideal)) (x12 : (⟨S512, .f32⟩ : BufTy).Contents (Elt Ideal)) (x13 : (⟨S1000x512, .i32⟩ : BufTy).Contents (Elt Ideal)) (x14 : (⟨S1000, .f32⟩ : BufTy).Contents (Elt Ideal)) (r : Fin 16384) (q : Fin 1000) :
    val_main_call4_v5 (F := Ideal) x0 x1 x2 x3 x4 x5 x6 x7 x8 x9 x10 x11 x12 x13 x14 (ix2 r q)
      = rowOf (val_main_v55 (F := Ideal) x0 x1 x2 x3 x4 x5 x6 x7 x8 x9 x10 x11 x12 x13 x14) r q - rowMax (rowOf (val_main_v55 (F := Ideal) x0 x1 x2 x3 x4 x5 x6 x7 x8 x9 x10 x11 x12 x13 x14) r) := by
  have hi : idx_main_call4_v3 (idx_main_call4_v4 (ix2 r q)) = ix1 r := funext fun a => by
    match a with | ⟨0, _⟩ => rfl
  rw [val_main_call4_v5_apply, val_main_call4_v4_apply, val_main_call4_v3_apply, hi, rowMax_at]
  simp only [Ideal.subf_def, rowOf]

/-- The sum of the exponentials of row r's shifted logits, from zero. -/
theorem sumExp_at (x0 : (⟨S16384x1024, .f32⟩ : BufTy).Contents (Elt Ideal)) (x1 : (⟨S4096x1024, .i32⟩ : BufTy).Contents (Elt Ideal)) (x2 : (⟨S4096, .f32⟩ : BufTy).Contents (Elt Ideal)) (x3 : (⟨S4096, .f32⟩ : BufTy).Contents (Elt Ideal)) (x4 : (⟨S1024x4096, .i32⟩ : BufTy).Contents (Elt Ideal)) (x5 : (⟨S1024, .f32⟩ : BufTy).Contents (Elt Ideal)) (x6 : (⟨S1024, .f32⟩ : BufTy).Contents (Elt Ideal)) (x7 : (⟨S1024x1024, .i32⟩ : BufTy).Contents (Elt Ideal)) (x8 : (⟨S1024, .f32⟩ : BufTy).Contents (Elt Ideal)) (x9 : (⟨S1024, .f32⟩ : BufTy).Contents (Elt Ideal)) (x10 : (⟨S512x1024, .i32⟩ : BufTy).Contents (Elt Ideal)) (x11 : (⟨S512, .f32⟩ : BufTy).Contents (Elt Ideal)) (x12 : (⟨S512, .f32⟩ : BufTy).Contents (Elt Ideal)) (x13 : (⟨S1000x512, .i32⟩ : BufTy).Contents (Elt Ideal)) (x14 : (⟨S1000, .f32⟩ : BufTy).Contents (Elt Ideal)) (r : Fin 16384) :
    val_main_call4_v7 (F := Ideal) x0 x1 x2 x3 x4 x5 x6 x7 x8 x9 x10 x11 x12 x13 x14 (ix1 r)
      = ∑ k : Fin 1000, Ideal.exp (rowOf (val_main_v55 (F := Ideal) x0 x1 x2 x3 x4 x5 x6 x7 x8 x9 x10 x11 x12 x13 x14) r k - rowMax (rowOf (val_main_v55 (F := Ideal) x0 x1 x2 x3 x4 x5 x6 x7 x8 x9 x10 x11 x12 x13 x14) r)) := by
  have hi : ∀ k : Fin 1000, idx_main_call4_v7 (ix1 r) k = ix2 r k := fun k => funext fun a => by
    match a with | ⟨0, _⟩ => rfl | ⟨1, _⟩ => rfl
  rw [val_main_call4_v7_apply, val_main_call4_cst_1_apply, Ideal.ofBits_def, Ideal.ofBits_zero_f32, zero_add]
  refine Finset.sum_congr rfl fun k _ => ?_
  rw [hi k, val_main_call4_v6_apply, shifted_at]
  simp only [Ideal.hostUnary_exp_def]

/-- The reference's result at (r, q) is the log-softmax of row r's logits at class q. -/
theorem result_at (x0 : (⟨S16384x1024, .f32⟩ : BufTy).Contents (Elt Ideal)) (x1 : (⟨S4096x1024, .i32⟩ : BufTy).Contents (Elt Ideal)) (x2 : (⟨S4096, .f32⟩ : BufTy).Contents (Elt Ideal)) (x3 : (⟨S4096, .f32⟩ : BufTy).Contents (Elt Ideal)) (x4 : (⟨S1024x4096, .i32⟩ : BufTy).Contents (Elt Ideal)) (x5 : (⟨S1024, .f32⟩ : BufTy).Contents (Elt Ideal)) (x6 : (⟨S1024, .f32⟩ : BufTy).Contents (Elt Ideal)) (x7 : (⟨S1024x1024, .i32⟩ : BufTy).Contents (Elt Ideal)) (x8 : (⟨S1024, .f32⟩ : BufTy).Contents (Elt Ideal)) (x9 : (⟨S1024, .f32⟩ : BufTy).Contents (Elt Ideal)) (x10 : (⟨S512x1024, .i32⟩ : BufTy).Contents (Elt Ideal)) (x11 : (⟨S512, .f32⟩ : BufTy).Contents (Elt Ideal)) (x12 : (⟨S512, .f32⟩ : BufTy).Contents (Elt Ideal)) (x13 : (⟨S1000x512, .i32⟩ : BufTy).Contents (Elt Ideal)) (x14 : (⟨S1000, .f32⟩ : BufTy).Contents (Elt Ideal)) (r : Fin 16384) (q : Fin 1000) :
    val_main_v56 (F := Ideal) x0 x1 x2 x3 x4 x5 x6 x7 x8 x9 x10 x11 x12 x13 x14 (ix2 r q) = logSoftmax (rowOf (val_main_v55 (F := Ideal) x0 x1 x2 x3 x4 x5 x6 x7 x8 x9 x10 x11 x12 x13 x14) r) q := by
  have hi : idx_main_call4_v8 (idx_main_call4_v10 (ix2 r q)) = ix1 r := funext fun a => by
    match a with | ⟨0, _⟩ => rfl
  rw [val_main_v56_apply, val_main_call4_v10_apply, val_main_call4_v9_apply, val_main_call4_v8_apply, hi, sumExp_at,
    shifted_at]
  simp only [Ideal.subf_def, Ideal.hostUnary_log_def, logSoftmax]

/-- The fourth hidden layer's row r is the four hidden layers of the specification on row r of the input. -/
theorem hidden_row (x0 : (⟨S16384x1024, .f32⟩ : BufTy).Contents (Elt Ideal)) (x1 : (⟨S4096x1024, .i32⟩ : BufTy).Contents (Elt Ideal)) (x2 : (⟨S4096, .f32⟩ : BufTy).Contents (Elt Ideal)) (x3 : (⟨S4096, .f32⟩ : BufTy).Contents (Elt Ideal)) (x4 : (⟨S1024x4096, .i32⟩ : BufTy).Contents (Elt Ideal)) (x5 : (⟨S1024, .f32⟩ : BufTy).Contents (Elt Ideal)) (x6 : (⟨S1024, .f32⟩ : BufTy).Contents (Elt Ideal)) (x7 : (⟨S1024x1024, .i32⟩ : BufTy).Contents (Elt Ideal)) (x8 : (⟨S1024, .f32⟩ : BufTy).Contents (Elt Ideal)) (x9 : (⟨S1024, .f32⟩ : BufTy).Contents (Elt Ideal)) (x10 : (⟨S512x1024, .i32⟩ : BufTy).Contents (Elt Ideal)) (x11 : (⟨S512, .f32⟩ : BufTy).Contents (Elt Ideal)) (x12 : (⟨S512, .f32⟩ : BufTy).Contents (Elt Ideal)) (r : Fin 16384) :
    rowOf (val_main_v47 (F := Ideal) x0 x1 x2 x3 x4 x5 x6 x7 x8 x9 x10 x11 x12) r = hidden (θR x1 x2 x3 x4 x5 x6 x7 x8 x9 x10 x11 x12) (rowOf x0 r) := by
  rw [layer4_row, layer3_row, layer2_row, layer1_row]
  rfl

/-- The reference's result is the network of the specification, over its own weight arrays. -/
theorem ref_eq (x0 : (⟨S16384x1024, .f32⟩ : BufTy).Contents (Elt Ideal)) (x1 : (⟨S4096x1024, .i32⟩ : BufTy).Contents (Elt Ideal)) (x2 x3 : (⟨S4096, .f32⟩ : BufTy).Contents (Elt Ideal)) (x4 : (⟨S1024x4096, .i32⟩ : BufTy).Contents (Elt Ideal)) (x5 x6 : (⟨S1024, .f32⟩ : BufTy).Contents (Elt Ideal)) (x7 : (⟨S1024x1024, .i32⟩ : BufTy).Contents (Elt Ideal)) (x8 x9 : (⟨S1024, .f32⟩ : BufTy).Contents (Elt Ideal)) (x10 : (⟨S512x1024, .i32⟩ : BufTy).Contents (Elt Ideal)) (x11 x12 : (⟨S512, .f32⟩ : BufTy).Contents (Elt Ideal)) (x13 : (⟨S1000x512, .i32⟩ : BufTy).Contents (Elt Ideal)) (x14 : (⟨S1000, .f32⟩ : BufTy).Contents (Elt Ideal)) :
    val_main_v56 (F := Ideal) x0 x1 x2 x3 x4 x5 x6 x7 x8 x9 x10 x11 x12 x13 x14
      = out (θR x1 x2 x3 x4 x5 x6 x7 x8 x9 x10 x11 x12) (val_main_v54 (F := Ideal) x13 x14) x0 := by
  funext j
  obtain ⟨r, q, rfl⟩ : ∃ (r : Fin 16384) (q : Fin 1000), j = ix2 r q := ⟨j 0, j 1, eq_ix2 j⟩
  rw [out_ix2, result_at, logits_row, hidden_row]

end Cert.Mlp.Ref

end
-- ==== Proof.Bridge.lean ====
/-
  The kernel's result is the specification's network over the reference's weight arrays.

  The hidden layers' parameters the region finds are the reference's, built from the same argument arrays; the padded
  fifth matrix agrees with the reference's on the first 1000 columns, so the log-softmax of the padded logits with
  their last 24 entries at `-∞` is, at each of the 1000 classes, the log-softmax of the reference's logits.
-/
import proofs.«426159_j81003083203269_3_alg».proof.Proof.KernelValue
import proofs.«426159_j81003083203269_3_alg».proof.Proof.Weights
import proofs.«426159_j81003083203269_3_alg».proof.Proof.RefValue

noncomputable section

namespace Cert.Mlp.Bridge

open Idealize.ShloMosaic Idealize.ShloMosaic.TcCoe Idealize.SL.Sem Idealize.ShloMosaic.ValueIdx Cert.Mlp
open Cert.KernelIdeal Cert.KernelIdeal.Gen

variable (m : (ℓ : Loc nD τ sig) → Buf (Elt Ideal) ℓ)

/-- The parameters the region finds are the reference's. -/
theorem θ_eq (c : Dev nD) : KValue.θ m c = Ref.θR (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  show Hidden.mk (V m c main_v7) (rowOf (V m c main_v42) (0 : Fin 1)) (V m c main_v15) (rowOf (V m c main_v43) (0 : Fin 1))
      (V m c main_v23) (rowOf (V m c main_v44) (0 : Fin 1)) (V m c main_v31) (rowOf (V m c main_v45) (0 : Fin 1)) = _
  rw [Weights.w1_eq m c, Weights.b1_eq m c, Weights.w2_eq m c, Weights.b2_eq m c, Weights.w3_eq m c, Weights.b3_eq m c,
    Weights.w4_eq m c, Weights.b4_eq m c]
  rfl

/-- The kernel's result, entry by entry, is the network over the reference's weight arrays. -/
theorem outK_eq (c : Dev nD) : KValue.outK m c
    = out (Ref.θR (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))
        (Cert.ReferenceIdeal.ReadP.val_main_v54 (F := Ideal) (m ((c.tc : Thread nD τ).loc main_arg13)) (m ((c.tc : Thread nD τ).loc main_arg14))) (m ((c.tc : Thread nD τ).loc main_arg0)) := by
  funext j
  obtain ⟨r, q, rfl⟩ : ∃ (r : Fin 16384) (q : Fin 1000), j = ix2 r q := ⟨j 0, j 1, eq_ix2 j⟩
  rw [out_ix2]
  show logSoftmax (padBot 1000 (lin (hidden (KValue.θ m c) (rowOf (V m c main_arg0) r)) (V m c main_v41)))
      (Fin.castLE (by decide : 1000 ≤ 1024) q) = _
  rw [logSoftmax_padded_lin _ (V m c main_v41)
      (Cert.ReferenceIdeal.ReadP.val_main_v54 (F := Ideal) (m ((c.tc : Thread nD τ).loc main_arg13)) (m ((c.tc : Thread nD τ).loc main_arg14)))
      (fun k o => Weights.w5_eq m c k o) q, θ_eq m c, V_main_arg0 m c]

end Cert.Mlp.Bridge

end
-- ==== Proof.RefRunHand.lean ====
/-
  The reference's run, read.

  @main of the reference is a straight line of 84 host operations, so every weakly fair execution ends with each buffer at
  the fold of the operations' results over the launch contents. Five of its lines are calls (four times the clamp at zero,
  once the log-softmax); a called function reads and writes its buffers at the value's type, carried to and from the
  buffer's own type. Carried there and back a value is unchanged; and at the ten buffers where a call meets the lines
  around it (each call's operand and each call's result) the two types are the same by computation, so the carrying
  is the identity. With these removed, the fold at the result buffer is the operations' composed term, which is the
  reference's last stage of the argument arrays; no operation writes an argument.
-/
import proofs.«426159_j81003083203269_3_alg».proof.Proof.RefRead
import Idealize.ShloMosaic.Lib.StableHlo.Run

noncomputable section

namespace Cert.Mlp.RefRun

open Cert.ReferenceIdeal Cert.ReferenceIdeal.Gen Idealize.ShloMosaic Idealize.ShloMosaic.TcCoe Idealize.SL.Sem Idealize.ShloMosaic.StableHlo
open Cert.ReferenceIdeal.ValueP

variable {F : FTy → Type} [FloatOps F]

/-- A value carried to a typed reference's buffer type and back is unchanged. -/
theorem ofBuf_toBuf {T : BufTy} (x : TRef sig T) (v : T.Contents (Elt F)) : x.ofBuf (x.toBuf v) = v := by
  obtain ⟨r, rfl, _, _⟩ := x
  rfl

/-- The operand `main_v10` of a called function, read at the value's type, is the buffer's contents. -/
theorem ofBuf_main_v10 (p1 : main_v10.ty = (⟨S16384x4096, .f32⟩ : BufTy)) (p2 : main_v10.space ≠ .host) (p3 : main_v10.isScoped = false)
    (v : (⟨S16384x4096, .f32⟩ : BufTy).Contents (Elt F)) : (TRef.of main_v10 p1 p2 p3).ofBuf v = v := rfl

/-- The result of a called function, carried to `main_v11`'s buffer type, is the value itself. -/
theorem toBuf_main_v11 (p1 : main_v11.ty = (⟨S16384x4096, .f32⟩ : BufTy)) (p2 : main_v11.space ≠ .host) (p3 : main_v11.isScoped = false)
    (v : (⟨S16384x4096, .f32⟩ : BufTy).Contents (Elt F)) : (TRef.of main_v11 p1 p2 p3).toBuf v = v := rfl

/-- The operand `main_v22` of a called function, read at the value's type, is the buffer's contents. -/
theorem ofBuf_main_v22 (p1 : main_v22.ty = (⟨S16384x1024, .f32⟩ : BufTy)) (p2 : main_v22.space ≠ .host) (p3 : main_v22.isScoped = false)
    (v : (⟨S16384x1024, .f32⟩ : BufTy).Contents (Elt F)) : (TRef.of main_v22 p1 p2 p3).ofBuf v = v := rfl

/-- The result of a called function, carried to `main_v23`'s buffer type, is the value itself. -/
theorem toBuf_main_v23 (p1 : main_v23.ty = (⟨S16384x1024, .f32⟩ : BufTy)) (p2 : main_v23.space ≠ .host) (p3 : main_v23.isScoped = false)
    (v : (⟨S16384x1024, .f32⟩ : BufTy).Contents (Elt F)) : (TRef.of main_v23 p1 p2 p3).toBuf v = v := rfl

/-- The operand `main_v34` of a called function, read at the value's type, is the buffer's contents. -/
theorem ofBuf_main_v34 (p1 : main_v34.ty = (⟨S16384x1024, .f32⟩ : BufTy)) (p2 : main_v34.space ≠ .host) (p3 : main_v34.isScoped = false)
    (v : (⟨S16384x1024, .f32⟩ : BufTy).Contents (Elt F)) : (TRef.of main_v34 p1 p2 p3).ofBuf v = v := rfl

/-- The result of a called function, carried to `main_v35`'s buffer type, is the value itself. -/
theorem toBuf_main_v35 (p1 : main_v35.ty = (⟨S16384x1024, .f32⟩ : BufTy)) (p2 : main_v35.space ≠ .host) (p3 : main_v35.isScoped = false)
    (v : (⟨S16384x1024, .f32⟩ : BufTy).Contents (Elt F)) : (TRef.of main_v35 p1 p2 p3).toBuf v = v := rfl

/-- The operand `main_v46` of a called function, read at the value's type, is the buffer's contents. -/
theorem ofBuf_main_v46 (p1 : main_v46.ty = (⟨S16384x512, .f32⟩ : BufTy)) (p2 : main_v46.space ≠ .host) (p3 : main_v46.isScoped = false)
    (v : (⟨S16384x512, .f32⟩ : BufTy).Contents (Elt F)) : (TRef.of main_v46 p1 p2 p3).ofBuf v = v := rfl

/-- The result of a called function, carried to `main_v47`'s buffer type, is the value itself. -/
theorem toBuf_main_v47 (p1 : main_v47.ty = (⟨S16384x512, .f32⟩ : BufTy)) (p2 : main_v47.space ≠ .host) (p3 : main_v47.isScoped = false)
    (v : (⟨S16384x512, .f32⟩ : BufTy).Contents (Elt F)) : (TRef.of main_v47 p1 p2 p3).toBuf v = v := rfl

/-- The operand `main_v55` of a called function, read at the value's type, is the buffer's contents. -/
theorem ofBuf_main_v55 (p1 : main_v55.ty = (⟨S16384x1000, .f32⟩ : BufTy)) (p2 : main_v55.space ≠ .host) (p3 : main_v55.isScoped = false)
    (v : (⟨S16384x1000, .f32⟩ : BufTy).Contents (Elt F)) : (TRef.of main_v55 p1 p2 p3).ofBuf v = v := rfl

/-- The result of a called function, carried to `main_v56`'s buffer type, is the value itself. -/
theorem toBuf_main_v56 (p1 : main_v56.ty = (⟨S16384x1000, .f32⟩ : BufTy)) (p2 : main_v56.space ≠ .host) (p3 : main_v56.isScoped = false)
    (v : (⟨S16384x1000, .f32⟩ : BufTy).Contents (Elt F)) : (TRef.of main_v56 p1 p2 p3).toBuf v = v := rfl

set_option maxRecDepth 8192 in
set_option maxHeartbeats 33600000 in
/-- Every weakly fair execution of the reference terminates with its result at the operations' composed term of the
    arguments and the arguments unchanged, at any float instance. -/
theorem run_composed (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v56) = res_main_v56 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v56).trans (by
        after_results_simp
        simp only [ofBuf_toBuf, ofBuf_main_v10, toBuf_main_v11, ofBuf_main_v22, toBuf_main_v23, ofBuf_main_v34, toBuf_main_v35, ofBuf_main_v46, toBuf_main_v47, ofBuf_main_v55, toBuf_main_v56]
        unfold res_main_v56
        rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl)⟩)
    (run_seq scopedRefs_eq scopedSems_eq defs main (fun _ => ops) main_eq (fun _ => ops_sub) m ρ)

/-- Every weakly fair execution of the reference terminates with its result at the last stage of the argument arrays
    and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v56) = Cert.ReferenceIdeal.ReadP.val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c).1.trans (Cert.ReferenceIdeal.ReadP.val_main_v56_eq m c), (h c).2⟩)
    (run_composed (F := Ideal) m ρ)

end Cert.Mlp.RefRun

end
-- ==== Proof.lean ====
/-
  A five-layer quantized perceptron with a log-softmax, tiled over the batch, against its jnp reference.

  Both programs dequantize each integer weight matrix as (w - 128) · s, row scale by row, and transpose it; four
  layers are a matrix product, a bias and a clamp at zero, the fifth a product alone, and the result is the
  log-softmax over the 1000 classes. The kernel keeps the weights in bf16 and the batch in blocks of 256 rows, which
  changes nothing over the extended reals, and it pads the class axis to 1024 columns, filling the 24 extra logits with
  a constant the certificate names `-∞`: the extra columns then add nothing to the row maximum (`-∞` is the least
  element) nor to the sum of exponentials (`exp (-∞) = 0`), and the line after the region drops them.

  The frames of the two kernel programs are the generated ones. The reference's frame is its run with the result
  dropped. The one rewrite of the ideal pass is the named constant. The algebraic claim: the kernel's result array is the
  specification's network read row by row off the blocks, the reference's is the same network read off its stages, over
  weight arrays that are one term of the same arguments.
-/
import proofs.«426159_j81003083203269_3_alg».proof.Defs
import proofs.«426159_j81003083203269_3_alg».proof.Proof.Gen.Kernel
import proofs.«426159_j81003083203269_3_alg».proof.Proof.Gen.Kernel.Skeleton
import proofs.«426159_j81003083203269_3_alg».proof.Proof.Gen.Kernel.Launch
import proofs.«426159_j81003083203269_3_alg».proof.Proof.Gen.Kernel.Points
import proofs.«426159_j81003083203269_3_alg».proof.Proof.Gen.Kernel.Frame
import proofs.«426159_j81003083203269_3_alg».proof.Proof.Gen.KernelIdeal
import proofs.«426159_j81003083203269_3_alg».proof.Proof.Gen.KernelIdeal.Skeleton
import proofs.«426159_j81003083203269_3_alg».proof.Proof.Gen.KernelIdeal.Launch
import proofs.«426159_j81003083203269_3_alg».proof.Proof.Gen.KernelIdeal.Points
import proofs.«426159_j81003083203269_3_alg».proof.Proof.Gen.KernelIdeal.Frame
import proofs.«426159_j81003083203269_3_alg».proof.Proof.Gen.ReferenceIdeal
import proofs.«426159_j81003083203269_3_alg».proof.Proof.Gen.Pre_finite_inputs
import proofs.«426159_j81003083203269_3_alg».proof.Proof.KernelValue
import proofs.«426159_j81003083203269_3_alg».proof.Proof.Bridge
import proofs.«426159_j81003083203269_3_alg».proof.Proof.RefValue
import proofs.«426159_j81003083203269_3_alg».proof.Proof.RefRunHand
import Idealize.ShloMosaic.Adequacy
import Idealize.ShloMosaic.Init

noncomputable section

namespace Cert.Proof

open Idealize.ShloMosaic Idealize.SL.Sem

/-- The kernel's result and the reference's are one array. -/
theorem algebraic : Cert.algebraic_KernelIdeal_ReferenceIdeal := by
  intro m ρ m' ρ' _ hagree
  refine ⟨fun c => Cert.Mlp.KValue.outK m c, Cert.Mlp.KValue.run m ρ, ?_⟩
  refine (θ_run Cert.ReferenceIdeal.defs _ _).mono (fun _ h c => ⟨(h c).1.trans ?_, (h c).2⟩) (Cert.Mlp.RefRun.run m' ρ')
  obtain ⟨h0, h1, h2, h3, h4, h5, h6, h7, h8, h9, h10, h11, h12, h13, h14⟩ := hagree c
  rw [h0, h1, h2, h3, h4, h5, h6, h7, h8, h9, h10, h11, h12, h13, h14, Cert.Mlp.Ref.ref_eq]
  exact (Cert.Mlp.Bridge.outK_eq m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.Mlp.RefRun.run m ρ),
  IdealRules.named_const.statement Cert.KernelIdeal.κ "neg_big" .f32 0xFF333332#32 ⊥ rfl,
  algebraic⟩

end Cert.Proof

end
